-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S32768x10 : Shape := ⟨2, ![32768, 10]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S32768x10 : S_.BroadcastsInDim S32768x10 (![] : Fin 0 → Fin S32768x10.rank)
  reducesTo_S32768x10_S_d0_1 : S32768x10.ReducesTo [0, 1] S_

variable [Facts]

def fn {F : FTy → Type} [FloatOps F] (main_arg0 : FVec F S32768x1000 .f32) (main_arg1 : IVec S32768x10 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_c_0 : IVec S_ 32 := constantI S_ 32 4294967295#32
  let main_v4 : IVec S32768x10 32 := broadcastInDim S32768x10 ![] bcast_S_S32768x10 main_c_0
  let main_v5 : IVec S32768x10 1 := cmpi .sge main_arg1 main_v4
  let main_c_1 : IVec S_ 1 := constantI S_ 1 1#1
  let main_v6 : IVec S_ 1 := (fun x v => Host.reduce IntOp.andi x v reducesTo_S32768x10_S_d0_1 h_S_) main_v5 main_c_1
  let main_v7 : IVec S_ 1 := andi main_v3 main_v6
  main_v7
-- ==== Kernel.lean ====
abbrev S32768x1000 : Shape := ⟨2, ![32768, 1000]⟩
abbrev S32768x10 : Shape := ⟨2, ![32768, 10]⟩
abbrev S_ : Shape := ⟨0, ![]⟩
abbrev S32768 : Shape := ⟨1, ![32768]⟩
abbrev S1024x1000 : Shape := ⟨2, ![1024, 1000]⟩
abbrev S1024x10 : Shape := ⟨2, ![1024, 10]⟩
abbrev S1024 : Shape := ⟨1, ![1024]⟩
abbrev S1024x1 : Shape := ⟨2, ![1024, 1]⟩

abbrev nBuf : Space → Nat
  | .hbm => 23
  | .vmem => 8
  | .smem => 0
  | _ => 0

abbrev bufTy : (tb : Table) → Fin (tcTables nBuf tb) → BufTy
  | .hbm, ⟨0, _⟩ => ⟨S32768x1000, .f32⟩
  | .hbm, ⟨1, _⟩ => ⟨S32768x10, .i32⟩
  | .hbm, ⟨2, _⟩ => ⟨S_, .i32⟩
  | .hbm, ⟨3, _⟩ => ⟨S32768x10, .i32⟩
  | .hbm, ⟨4, _⟩ => ⟨S32768x10, .i1⟩
  | .hbm, ⟨5, _⟩ => ⟨S32768x10, .f32⟩
  | .hbm, ⟨6, _⟩ => ⟨S_, .f32⟩
  | .hbm, ⟨7, _⟩ => ⟨S32768, .f32⟩
  | .hbm, ⟨8, _⟩ => ⟨S_, .i32⟩
  | .hbm, ⟨9, _⟩ => ⟨S_, .i32⟩
  | .hbm, ⟨10, _⟩ => ⟨S32768x10, .i32⟩
  | .hbm, ⟨11, _⟩ => ⟨S32768x10, .i32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S_, .f32⟩
  | .hbm, ⟨16, _⟩ => ⟨S32768, .f32⟩
  | .hbm, ⟨17, _⟩ => ⟨S32768, .f32⟩
  | .hbm, ⟨18, _⟩ => ⟨S32768, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1024x10, .i32⟩
  | .local _ .vmem, ⟨3, _⟩ => ⟨S1024x10, .i32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_cst_4 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x10 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S32768x10 : S_.BroadcastsInDim S32768x10 (![] : Fin 0 → Fin S32768x10.rank)
  reducesTo_S32768x10_S32768_d1 : S32768x10.ReducesTo [1] S32768
  h_S_ : 0 < S_.numel
  bcast_S_S32768 : S_.BroadcastsInDim S32768 (![] : Fin 0 → Fin S32768.rank)
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  inb_S1024x10_S1024x10_0_0 : ∀ a, (![0, 0] : Fin 2 → Nat) a + S1024x10.size a ≤ S1024x10.size a
  h_S1024x10 : 0 < S1024x10.numel
  shapeCasts_S1024x10_S1024x10 : S1024x10.ShapeCasts S1024x10
  slices_S1024x10_o0_0_S1024x1 : S1024x10.Slices ![0, 0] S1024x1
  slices_S1024x10_o0_1_S1024x1 : S1024x10.Slices ![0, 1] S1024x1
  slices_S1024x10_o0_2_S1024x1 : S1024x10.Slices ![0, 2] S1024x1
  slices_S1024x10_o0_3_S1024x1 : S1024x10.Slices ![0, 3] S1024x1
  slices_S1024x10_o0_4_S1024x1 : S1024x10.Slices ![0, 4] S1024x1
  slices_S1024x10_o0_5_S1024x1 : S1024x10.Slices ![0, 5] S1024x1
  slices_S1024x10_o0_6_S1024x1 : S1024x10.Slices ![0, 6] S1024x1
  slices_S1024x10_o0_7_S1024x1 : S1024x10.Slices ![0, 7] S1024x1
  slices_S1024x10_o0_8_S1024x1 : S1024x10.Slices ![0, 8] S1024x1
  slices_S1024x10_o0_9_S1024x1 : S1024x10.Slices ![0, 9] S1024x1
  shapeCasts_S1024x1_S1024 : S1024x1.ShapeCasts S1024
  inb_S1024_S1024_0 : ∀ a, (![0] : Fin 1 → Nat) a + S1024.size a ≤ S1024.size a
  h_S1024 : 0 < S1024.numel
  shapeCasts_S1024_S1024 : S1024.ShapeCasts S1024
  reducesTo_S32768_S_d0 : S32768.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S32768x1000.size a
  hwx0_0 : ∀ i : grid0.Coords, EltTy.bits .f32 = 32 ∨ (Rect.block (s := S32768x1000) S1024x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x10.size a ≤ S32768x10.size a
  hwx0_1 : ∀ i : grid0.Coords, EltTy.bits .i32 = 32 ∨ (Rect.block (s := S32768x10) S1024x10.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S32768.size a
  hwx0_2 : ∀ i : grid0.Coords, EltTy.bits .f32 = 32 ∨ (Rect.block (s := S32768) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S32768.size a
  hwx0_3 : ∀ i : grid0.Coords, EltTy.bits .f32 = 32 ∨ (Rect.block (s := S32768) S1024.size (cc0_transform_3 i) (hinb0_3 i)).WholeWords (EltTy.packing .f32)

variable [Facts₀]

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x1000 : Shape := ⟨2, ![32768, 1000]⟩
abbrev S32768x10 : Shape := ⟨2, ![32768, 10]⟩
abbrev S_ : Shape := ⟨0, ![]⟩
abbrev S32768 : Shape := ⟨1, ![32768]⟩
abbrev S32768x1 : Shape := ⟨2, ![32768, 1]⟩
abbrev S32768x10x1 : Shape := ⟨3, ![32768, 10, 1]⟩
abbrev S32768x10x2 : Shape := ⟨3, ![32768, 10, 2]⟩

abbrev nBuf : Space → Nat
  | .hbm => 73
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768x10, .i32⟩
  | .hbm, ⟨2, _⟩ => ⟨S_, .i32⟩
  | .hbm, ⟨3, _⟩ => ⟨S32768x10, .i32⟩
  | .hbm, ⟨4, _⟩ => ⟨S32768x10, .i1⟩
  | .hbm, ⟨5, _⟩ => ⟨S32768x10, .i32⟩
  | .hbm, ⟨6, _⟩ => ⟨S_, .i32⟩
  | .hbm, ⟨7, _⟩ => ⟨S32768, .i32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S_, .f32⟩
  | .hbm, ⟨12, _⟩ => ⟨S32768, .f32⟩
  | .hbm, ⟨13, _⟩ => ⟨S32768, .f32⟩
  | .hbm, ⟨14, _⟩ => ⟨S32768x1, .f32⟩
  | .hbm, ⟨15, _⟩ => ⟨S32768x1000, .f32⟩
  | .hbm, ⟨16, _⟩ => ⟨S32768x1000, .f32⟩
  | .hbm, ⟨17, _⟩ => ⟨S32768x1000, .f32⟩
  | .hbm, ⟨18, _⟩ => ⟨S_, .f32⟩
  | .hbm, ⟨19, _⟩ => ⟨S32768, .f32⟩
  | .hbm, ⟨20, _⟩ => ⟨S32768x1, .f32⟩
  | .hbm, ⟨21, _⟩ => ⟨S32768x1000, .f32⟩
  | .hbm, ⟨22, _⟩ => ⟨S32768x1000, .f32⟩
  | .hbm, ⟨23, _⟩ => ⟨S32768, .i32⟩
  | .hbm, ⟨24, _⟩ => ⟨S32768x1, .i32⟩
  | .hbm, ⟨25, _⟩ => ⟨S_, .i32⟩
  | .hbm, ⟨26, _⟩ => ⟨S_, .i32⟩
  | .hbm, ⟨27, _⟩ => ⟨S32768x10, .i32⟩
  | .hbm, ⟨28, _⟩ => ⟨S32768x10, .i32⟩
  | .hbm, ⟨29, _⟩ => ⟨S_, .i1⟩
  | .hbm, ⟨30, _⟩ => ⟨S32768x1000, .i1⟩
  | .hbm, ⟨31, _⟩ => ⟨S_, .i32⟩
  | .hbm, ⟨32, _⟩ => ⟨S32768x1, .i32⟩
  | .hbm, ⟨33, _⟩ => ⟨S32768x1, .i1⟩
  | .hbm, ⟨34, _⟩ => ⟨S_, .i32⟩
  | .hbm, ⟨35, _⟩ => ⟨S32768x1, .i32⟩
  | .hbm, ⟨36, _⟩ => ⟨S32768x1, .i32⟩
  | .hbm, ⟨37, _⟩ => ⟨S32768x1, .i32⟩
  | .hbm, ⟨38, _⟩ => ⟨S_, .i32⟩
  | .hbm, ⟨39, _⟩ => ⟨S32768x10, .i32⟩
  | .hbm, ⟨40, _⟩ => ⟨S32768x10, .i1⟩
  | .hbm, ⟨41, _⟩ => ⟨S_, .i32⟩
  | .hbm, ⟨42, _⟩ => ⟨S32768x10, .i32⟩
  | .hbm, ⟨43, _⟩ => ⟨S32768x10, .i32⟩
  | .hbm, ⟨44, _⟩ => ⟨S32768x10, .i32⟩
  | .hbm, ⟨45, _⟩ => ⟨S32768x10, .i32⟩
  | .hbm, ⟨46, _⟩ => ⟨S32768x10x1, .i32⟩
  | .hbm, ⟨47, _⟩ => ⟨S32768x10x1, .i32⟩
  | .hbm, ⟨48, _⟩ => ⟨S32768x10x2, .i32⟩
  | .hbm, ⟨49, _⟩ => ⟨S_, .i1⟩
  | .hbm, ⟨50, _⟩ => ⟨S32768x10, .i1⟩
  | .hbm, ⟨51, _⟩ => ⟨S32768x1000, .i1⟩
  | .hbm, ⟨52, _⟩ => ⟨S32768x1000, .i1⟩
  | .hbm, ⟨53, _⟩ => ⟨S32768x1000, .f32⟩
  | .hbm, ⟨54, _⟩ => ⟨S32768x1000, .f32⟩
  | .hbm, ⟨55, _⟩ => ⟨S_, .f32⟩
  | .hbm, ⟨56, _⟩ => ⟨S32768, .f32⟩
  | .hbm, ⟨57, _⟩ => ⟨S_, .f32⟩
  | .hbm, ⟨58, _⟩ => ⟨S32768, .f32⟩
  | .hbm, ⟨59, _⟩ => ⟨S32768, .f32⟩
  | .hbm, ⟨60, _⟩ => ⟨S32768, .f32⟩
  | .hbm, ⟨61, _⟩ => ⟨S32768, .f32⟩
  | .hbm, ⟨62, _⟩ => ⟨S_, .f32⟩
  | .hbm, ⟨63, _⟩ => ⟨S32768, .f32⟩
  | .hbm, ⟨64, _⟩ => ⟨S32768, .f32⟩
  | .hbm, ⟨65, _⟩ => ⟨S_, .f32⟩
  | .hbm, ⟨66, _⟩ => ⟨S32768, .f32⟩
  | .hbm, ⟨67, _⟩ => ⟨S32768, .f32⟩
  | .hbm, ⟨68, _⟩ => ⟨S32768, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_12 : Ref sig .tc := ⟨.hbm, 62, rfl⟩
abbrev main_v44 : Ref sig .tc := ⟨.hbm, 63, rfl⟩
abbrev main_v45 : Ref sig .tc := ⟨.hbm, 64, rfl⟩
abbrev main_cst_13 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_cst_15 : Ref sig .tc := ⟨.hbm, 71, rfl⟩
abbrev main_v50 : Ref sig .tc := ⟨.hbm, 72, rfl⟩

abbrev nD : Nat := 1
abbrev τ : Topo := Topo.v7x

variable {F : FTy → Type} [FloatOps F]

class Facts₀ : Prop where
  bcast_S_S32768x10 : S_.BroadcastsInDim S32768x10 (![] : Fin 0 → Fin S32768x10.rank)
  natLt_1_32 : 1 < 32
  reducesTo_S32768x10_S32768_d1 : S32768x10.ReducesTo [1] S32768
  h_S_ : 0 < S_.numel
  reducesTo_S32768x1000_S32768_d1 : S32768x1000.ReducesTo [1] S32768
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S_S32768x1000 : S_.BroadcastsInDim S32768x1000 (![] : Fin 0 → Fin S32768x1000.rank)
  bcast_S_S32768x1 : S_.BroadcastsInDim S32768x1 (![] : Fin 0 → Fin S32768x1.rank)
  bcast_S32768x1_S32768x10_0_1 : S32768x1.BroadcastsInDim S32768x10 (![0, 1] : Fin 2 → Fin S32768x10.rank)
  bcast_S32768x10_S32768x10x1_0_1 : S32768x10.BroadcastsInDim S32768x10x1 (![0, 1] : Fin 2 → Fin S32768x10x1.rank)
  concatenates_S32768x10x1_S32768x10x1_S32768x10x2_d2 : Shape.Concatenates [S32768x10x1, S32768x10x1] S32768x10x2 2
  reducesTo_S32768_S_d0 : S32768.ReducesTo [0] S_
  scatter_S32768x1000_S32768x10x2_S32768x10_n_01_01_2_wf : ScatterDims.WF S32768x1000 S32768x10x2 S32768x10 [] [0, 1] [0, 1] 2

variable [Facts₀]

def scatter_S32768x1000_S32768x10x2_S32768x10_n_01_01_2 : ScatterDims S32768x1000 S32768x10x2 S32768x10 where
  updateWindowDims := []
  insertedWindowDims := [0, 1]
  scatterDimsToOperandDims := [0, 1]
  indexVectorDim := 2
  wf := scatter_S32768x1000_S32768x10x2_S32768x10_n_01_01_2_wf

class Facts : Prop extends Facts₀ where

variable [Facts]
-- ==== Proof.RowSpec.lean ====
/-
  The complementary-label loss, one row at a time, as a function on the extended reals.

  A row of the score array is `xr : Fin 1000 → EReal`, a row of the label array is `lab : Fin 10 → BitVec 32`.
  A label equal to `-1` is "absent": it is replaced by the class count `1000`, which no class index `k < 1000` equals.
  Class `k` is MARKED when some (replaced) label is the word `k`.  (The marking is stated first over any row of label words,
  `markedBy`, because the kernel's body meets the labels already replaced.)  With `M` the row's maximum, `e k = exp (xr k - M)` and
  `D = ∑ k, e k`, the row's loss is

      999 / (1000 - n) · (0 - log ((∑ k unmarked, e k) / D + ε))

  where `n` counts the labels that are not `-1` (repeats counted).  The result of both programs is the mean of the rows' losses.
  The three float literals `999`, `1000`, `ε` and the divisor of the mean are kept as the words both programs print: they are
  the same words on both sides and are never evaluated.
-/
import Idealize.ShloMosaic.PureOps.Ideal
import Idealize.ShloMosaic.PureOps.Ideal.Laws
import Idealize.ShloMosaic.Lib.ValueIdx

noncomputable section

namespace Cert.Mcl

open Idealize.ShloMosaic Idealize.ShloMosaic.ValueIdx

/-- The score array's shape, the label array's, a vector of one entry per row, and the scalar shape. -/
abbrev SX : Shape := ⟨2, ![32768, 1000]⟩
abbrev SL : Shape := ⟨2, ![32768, 10]⟩
abbrev SR : Shape := ⟨1, ![32768]⟩
abbrev S0 : Shape := ⟨0, ![]⟩

/-- An absent label (`-1`) is replaced by the class count, which is no class index. -/
def safeLab (l : BitVec 32) : BitVec 32 := Scalar.select (IntOp.cmpi .ne l 4294967295#32) l 1000#32

/-- Class `k` is marked by a row of label words `sl` when one of them is the word `k`. -/
def markedBy (sl : Fin 10 → BitVec 32) (k : Fin 1000) : Prop := ∃ i : Fin 10, BitVec.ofNat 32 k.val = sl i

instance (sl : Fin 10 → BitVec 32) (k : Fin 1000) : Decidable (markedBy sl k) := by unfold markedBy; infer_instance

/-- A row of labels with the absent ones replaced. -/
def safeRow (lab : Fin 10 → BitVec 32) : Fin 10 → BitVec 32 := fun i => safeLab (lab i)

/-- How many labels of the row are present (not `-1`), repeats counted. -/
def present (lab : Fin 10 → BitVec 32) : ℕ :=
  (Finset.univ.filter fun i : Fin 10 => IntOp.cmpi .ne (lab i) 4294967295#32 = 1#1).card

/-- The row's maximum: the fold of `max` from `-∞`'s word over the row. -/
def rowMax (xr : Fin 1000 → EReal) : EReal :=
  (Finset.univ : Finset (Fin 1000)).fold max (Ideal.ofBits .f32 0xFF800000#32) xr

/-- The shifted exponential of entry `k`. -/
def expo (xr : Fin 1000 → EReal) (k : Fin 1000) : EReal := Ideal.exp (xr k - rowMax xr)

/-- The softmax denominator of the row. -/
def denom (xr : Fin 1000 → EReal) : EReal := ∑ k : Fin 1000, expo xr k

/-- The shifted exponentials of the classes a row of label words leaves unmarked, summed. -/
def keptNumBy (xr : Fin 1000 → EReal) (sl : Fin 10 → BitVec 32) : EReal :=
  ∑ k : Fin 1000, if markedBy sl k then (0 : EReal) else expo xr k

/-- The same over a row of labels, the absent ones replaced first. -/
def keptNum (xr : Fin 1000 → EReal) (lab : Fin 10 → BitVec 32) : EReal := keptNumBy xr (safeRow lab)

/-- What the loss does with a row's unmarked mass `A`: `0 - log (A + ε)`. -/
def negLog (A : EReal) : EReal := 0 - Ideal.log (A + Ideal.ofBits .f32 0x33D6BF95#32)

/-- The row's weight `999 / (1000 - n)`. -/
def weight (lab : Fin 10 → BitVec 32) : EReal :=
  Ideal.div (Ideal.ofBits .f32 0x4479C000#32) (Ideal.ofBits .f32 0x447A0000#32 - (((present lab : ℕ) : ℝ) : EReal))

/-- The row's loss. -/
def rowLoss (xr : Fin 1000 → EReal) (lab : Fin 10 → BitVec 32) : EReal :=
  weight lab * negLog (Ideal.div (keptNum xr lab) (denom xr))

/-- Row `r` of the score array and of the label array. -/
def xrow (x : SX.Idx → EReal) (r : Fin 32768) : Fin 1000 → EReal := fun k => x (ix2 r k)
def lrow (l : SL.Idx → BitVec 32) (r : Fin 32768) : Fin 10 → BitVec 32 := fun i => l (ix2 r i)

/-- The vector of the rows' losses. -/
def lossArr (x : SX.Idx → EReal) (l : SL.Idx → BitVec 32) : SR.Idx → EReal :=
  fun j => rowLoss (xrow x ⟨(j 0).val, (j 0).isLt⟩) (lrow l ⟨(j 0).val, (j 0).isLt⟩)

theorem lossArr_ix1 (x : SX.Idx → EReal) (l : SL.Idx → BitVec 32) (r : Fin 32768) :
    lossArr x l (ix1 r) = rowLoss (xrow x r) (lrow l r) := rfl

/-- The mean of a vector of one entry per row, as both programs take it: the host's sum from the zero word, divided by the
    word of `32768`. -/
def meanOf (y : FVec Ideal SR .f32) : FVec Ideal S0 .f32 :=
  Host.divf (F := Ideal)
    (Host.reduceAdd (F := Ideal) y (constant (F := Ideal) S0 .f32 0x00000000#32) (by decide : SR.ReducesTo [0] S0) (by decide : 0 < S0.numel))
    (constant (F := Ideal) S0 .f32 0x47000000#32)

end Cert.Mcl

end
-- ==== Proof.PreFacts.lean ====
/-
  What the precondition says of the two argument arrays: every score is a real number (neither infinity), and every label is
  at least `-1` as a signed word.
-/
import proofs.«414125_j44590350467563_3_alg».proof.Pre_finite_inputs
import proofs.«414125_j44590350467563_3_alg».proof.Proof.Gen.Pre_finite_inputs
import proofs.«414125_j44590350467563_3_alg».proof.Proof.RowSpec
import Idealize.ShloMosaic.Lib.ReduceAll

noncomputable section

namespace Cert.Mcl

open Idealize.ShloMosaic

/-- The scalar shape has exactly one index. -/
instance scalarIdx_subsingleton : Subsingleton Cert.Pre_finite_inputs.S_.Idx :=
  ⟨fun _ _ => funext fun d => d.elim0⟩

/-- The word `0x7F800000` denotes `+∞`. -/
theorem ofBits_posInf : Ideal.ofBits .f32 0x7F800000#32 = (⊤ : EReal) := by
  simp [Ideal.ofBits, Ideal.ieee]

/-- An extended real whose absolute value `max x (-x)` lies strictly below `+∞` is a real number. -/
theorem real_of_abs_lt_top (x : EReal) (hx : Ideal.cmp .olt (max x (-x)) (⊤ : EReal) = 1#1) :
    ∃ a : ℝ, x = (a : EReal) := by
  induction x using EReal.rec with
  | bot => simp [Ideal.cmp] at hx
  | coe a => exact ⟨a, rfl⟩
  | top => simp [Ideal.cmp] at hx

/-- The precondition's value at the one scalar index, split into its two conjuncts. -/
theorem pre_split (x0 : FVec Ideal SX .f32) (x1 : IVec SL 32)
    (h : Cert.Pre_finite_inputs.fn (F := Ideal) x0 x1 = fun _ => 1#1) :
    (∀ i : SX.Idx, FloatOps.cmpf .olt (FloatOps.hostAbsf (x0 i)) (FloatOps.ofBits (F := Ideal) .f32 0x7F800000#32) = 1#1)
    ∧ (∀ i : SL.Idx, IntOp.cmpi .sge (x1 i) 4294967295#32 = 1#1) := by
  have h0 := congrFun h ValueIdx.ix0
  dsimp only [Cert.Pre_finite_inputs.fn] at h0
  obtain ⟨ha, hb⟩ := IntOp.andi_eq_one.1 h0
  refine ⟨fun i => ?_, fun i => ?_⟩
  · exact Host.reduce_andi_all _ _ _ _ _ ha i
  · exact Host.reduce_andi_all _ _ _ _ _ hb i

theorem finite_of_pre (x0 : FVec Ideal SX .f32) (x1 : IVec SL 32)
    (h : Cert.Pre_finite_inputs.fn (F := Ideal) x0 x1 = fun _ => 1#1) :
    ∀ i : SX.Idx, ∃ a : ℝ, (x0 i : EReal) = (a : EReal) := by
  intro i
  have hi := (pre_split x0 x1 h).1 i
  refine real_of_abs_lt_top (x0 i) ?_
  rw [← ofBits_posInf]
  exact hi

theorem labels_of_pre (x0 : FVec Ideal SX .f32) (x1 : IVec SL 32)
    (h : Cert.Pre_finite_inputs.fn (F := Ideal) x0 x1 = fun _ => 1#1) :
    ∀ i : SL.Idx, IntOp.cmpi .sge (x1 i) 4294967295#32 = 1#1 :=
  (pre_split x0 x1 h).2

end Cert.Mcl

end
-- ==== Proof.RowAlg.lean ====
/-
  The two pieces of arithmetic on the extended reals that join the reference's row to the kernel's.

  (1) On a row of FINITE scores every shifted exponential `e k` is a positive real and so is their sum `D`; then dividing each
      term by `D` before summing the unmarked ones (the reference: softmax first, mask after) is dividing the sum of the
      unmarked ones by `D` (the kernel): `∑ k, (e k / D) · [k unmarked] = (∑ k unmarked, e k) / D`.  This is
      distributivity, which fails at infinities: the finiteness of the inputs is used here and nowhere else.
  (2) The float sum of the ten presence bits, from the zero word, is the count of present labels.
-/
import proofs.«414125_j44590350467563_3_alg».proof.Proof.RowSpec

noncomputable section

namespace Cert.Mcl

open Idealize.ShloMosaic

/-- The word `0xFF800000` is `-∞`. -/
theorem rowAlg_ofBits_negInf_f32 : Ideal.ofBits .f32 0xFF800000#32 = (⊥ : EReal) := by
  simp [Ideal.ofBits, Ideal.ieee]

/-- A finite sum of real numbers, taken in the extended reals, is the real sum. -/
theorem rowAlg_coe_finset_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of a row of real numbers is a real number: it is above `-∞` because the row is not empty, and below `+∞`
    because every entry is. -/
theorem rowAlg_rowMax_real (xr : Fin 1000 → EReal) (a : Fin 1000 → ℝ) (ha : ∀ k, xr k = (a k : EReal)) :
    ∃ M : ℝ, rowMax xr = (M : EReal) := by
  have h1 : (⊥ : EReal) < rowMax xr := by
    unfold rowMax
    rw [rowAlg_ofBits_negInf_f32, Finset.lt_fold_max]
    right
    exact ⟨0, Finset.mem_univ _, by rw [ha]; exact EReal.bot_lt_coe _⟩
  have h2 : rowMax xr < (⊤ : EReal) := by
    unfold rowMax
    rw [rowAlg_ofBits_negInf_f32, Finset.fold_max_lt]
    exact ⟨bot_lt_top, fun k _ => by rw [ha]; exact EReal.coe_lt_top _⟩
  exact ⟨(rowMax xr).toReal, (EReal.coe_toReal h2.ne h1.ne').symm⟩

/-- On a row of real numbers with maximum `M` the shifted exponential of entry `k` is the real `exp (a k - M)`. -/
theorem rowAlg_expo_real (xr : Fin 1000 → EReal) (a : Fin 1000 → ℝ) (ha : ∀ k, xr k = (a k : EReal)) (M : ℝ)
    (hM : rowMax xr = (M : EReal)) (k : Fin 1000) : expo xr k = ((Real.exp (a k - M) : ℝ) : EReal) := by
  unfold expo
  rw [ha, hM, ← EReal.coe_sub]
  rfl

/-- A one-bit word's number is `1` when the word is `1` and `0` otherwise. -/
theorem rowAlg_bit_toNat (b : BitVec 1) : b.toNat = if b = 1#1 then 1 else 0 := by
  revert b; decide

theorem refKept_eq (xr : Fin 1000 → EReal) (hfin : ∀ k, ∃ a : ℝ, xr k = (a : EReal)) (sl : Fin 10 → BitVec 32)
    (nm : Fin 1000 → EReal) (hnm : ∀ k, nm k = if markedBy sl k then (0 : EReal) else 1) :
    Ideal.ofBits .f32 0x00000000#32 + ∑ k : Fin 1000,
        Ideal.div (expo xr k) (Ideal.ofBits .f32 0x00000000#32 + ∑ k' : Fin 1000, expo xr k') * nm k
      = Ideal.div (keptNumBy xr sl) (denom xr) := by
  choose a ha using hfin
  obtain ⟨M, hM⟩ := rowAlg_rowMax_real xr a ha
  have he : ∀ k, expo xr k = ((Real.exp (a k - M) : ℝ) : EReal) := rowAlg_expo_real xr a ha M hM
  have hDpos : (0 : ℝ) < ∑ k : Fin 1000, Real.exp (a k - M) :=
    Finset.sum_pos (fun k _ => Real.exp_pos _) ⟨0, Finset.mem_univ _⟩
  have hD : (∑ k : Fin 1000, expo xr k) = ((∑ k : Fin 1000, Real.exp (a k - M) : ℝ) : EReal) := by
    rw [← rowAlg_coe_finset_sum]
    exact Finset.sum_congr rfl (fun k _ => he k)
  have hnm' : ∀ k, nm k = (((if markedBy sl k then (0 : ℝ) else 1) : ℝ) : EReal) := by
    intro k
    rw [hnm k]
    split_ifs <;> simp
  have hK : keptNumBy xr sl
      = ((∑ k : Fin 1000, (if markedBy sl k then (0 : ℝ) else Real.exp (a k - M)) : ℝ) : EReal) := by
    unfold keptNumBy
    rw [← rowAlg_coe_finset_sum]
    refine Finset.sum_congr rfl (fun k _ => ?_)
    rw [he k]
    split_ifs <;> simp
  rw [Ideal.ofBits_zero_f32, zero_add, zero_add, hK]
  unfold denom
  rw [hD, Ideal.div_coe hDpos.ne', ← EReal.coe_mul]
  have hterm : ∀ k : Fin 1000,
      Ideal.div (expo xr k) ((∑ k : Fin 1000, Real.exp (a k - M) : ℝ) : EReal) * nm k
        = ((Real.exp (a k - M) * (1 / ∑ k : Fin 1000, Real.exp (a k - M))
            * (if markedBy sl k then (0 : ℝ) else 1) : ℝ) : EReal) := by
    intro k
    rw [Ideal.div_coe hDpos.ne', he k, hnm' k, ← EReal.coe_mul, ← EReal.coe_mul]
  rw [Finset.sum_congr rfl (fun k _ => hterm k), rowAlg_coe_finset_sum]
  congr 1
  rw [Finset.sum_mul]
  refine Finset.sum_congr rfl (fun k _ => ?_)
  split_ifs <;> ring

theorem presentSum_eq (lab : Fin 10 → BitVec 32) :
    Ideal.ofBits .f32 0x00000000#32 + ∑ i : Fin 10, ((((IntOp.cmpi .ne (lab i) 4294967295#32).toNat : ℕ) : ℝ) : EReal)
      = (((present lab : ℕ) : ℝ) : EReal) := by
  rw [Ideal.ofBits_zero_f32, zero_add,
    rowAlg_coe_finset_sum Finset.univ (fun i : Fin 10 => (((IntOp.cmpi .ne (lab i) 4294967295#32).toNat : ℕ) : ℝ)),
    ← Nat.cast_sum]
  have h : ∑ i : Fin 10, (IntOp.cmpi .ne (lab i) 4294967295#32).toNat = present lab := by
    unfold present
    rw [Finset.card_filter]
    exact Finset.sum_congr rfl (fun i _ => rowAlg_bit_toNat _)
  rw [h]

end Cert.Mcl

end
-- ==== Proof.KerHost.lean ====
/-
  What the host lines before the kernel's region compute, as the region finds them.

  The second operand of the region is the label array with every absent label (`-1`) replaced by the class count; the
  third is the vector of row weights `999 / (1000 - n)`, `n` the float sum of the row's ten presence bits, which is the
  count of the row's present labels.
-/
import proofs.«414125_j44590350467563_3_alg».proof.Proof.Gen.KernelIdeal.Frame
import proofs.«414125_j44590350467563_3_alg».proof.Proof.RowSpec
import proofs.«414125_j44590350467563_3_alg».proof.Proof.RowAlg
import Idealize.ShloMosaic.Lib.StableHlo.Run
import Idealize.ShloMosaic.PureOps.Ideal.Laws

noncomputable section

namespace Cert.Mcl.Ker

open Idealize.ShloMosaic Idealize.ShloMosaic.TcCoe Idealize.ShloMosaic.ValueIdx Idealize.SL.Sem Idealize.ShloMosaic.StableHlo
open Cert.KernelIdeal Cert.KernelIdeal.Gen Cert.Mcl

variable (m : (ℓ : Loc nD τ sig) → Buf (Elt Ideal) ℓ)

/-- The two argument arrays as launched, on core `c`. -/
abbrev scores (c : Dev nD) : SX.Idx → EReal := m ((c : Thread nD τ).loc main_arg0)
abbrev labels (c : Dev nD) : SL.Idx → BitVec 32 := m ((c : Thread nD τ).loc main_arg1)

/-- The region's second operand is the label array with the absent labels replaced. -/
theorem V_safe (c : Dev nD) : (V m c main_v4 : SL.Idx → BitVec 32) = fun i => safeLab (labels m c i) := by
  dsimp only [V, V0]
  simp only [hostOps0, hostOps0_1, hostOps0_2, List.flatten_cons, List.flatten_nil, List.append_nil, List.cons_append, List.nil_append]
  after_results
  rfl

/-- The region's third operand, as the host lines compose it. -/
theorem V_weight (c : Dev nD) : (V m c main_v8 : SR.Idx → EReal)
    = Host.divf (F := Ideal) (broadcastInDim S32768 ![] bcast_S_S32768 (constant (F := Ideal) S_ .f32 0x4479C000#32))
        (subf (broadcastInDim S32768 ![] bcast_S_S32768 (constant (F := Ideal) S_ .f32 0x447A0000#32))
          (Host.reduceAdd (F := Ideal)
            (uitofp .f32 (cmpi .ne (labels m c) (broadcastInDim S32768x10 ![] bcast_S_S32768x10 (constantI S_ 32 4294967295#32))))
            (constant (F := Ideal) S_ .f32 0x00000000#32) reducesTo_S32768x10_S32768_d1 h_S_)) := by
  dsimp only [V, V0]
  simp only [hostOps0, hostOps0_1, hostOps0_2, List.flatten_cons, List.flatten_nil, List.append_nil, List.cons_append, List.nil_append]
  after_results

/-- The host's float sum along a row of ten entries, from the zero word. -/
theorem rowSum10 (y : FVec Ideal S32768x10 .f32) (r : Fin 32768) :
    Host.reduceAdd (F := Ideal) y (constant (F := Ideal) S_ .f32 0x00000000#32) reducesTo_S32768x10_S32768_d1 h_S_ (ix1 r)
      = Ideal.ofBits .f32 0x00000000#32 + ∑ i : Fin 10, y (ix2 r i) := by
  simp only [Host.reduceAdd, Ideal.hostReduceAdd_def]
  rw [Ideal.hostReduceAdd_single reducesTo_S32768x10_S32768_d1 (by decide)]
  refine congrArg (_ + ·) (Finset.sum_congr rfl fun k _ => ?_)
  exact congrArg y (funext fun a => Fin.ext (by match a with | ⟨0, _⟩ => rfl | ⟨1, _⟩ => rfl))

/-- The quotient of the two splat words by a vector `n`, read at an entry. -/
theorem quot_apply (n : FVec Ideal S32768 .f32) (j : S32768.Idx) :
    Host.divf (F := Ideal) (broadcastInDim S32768 ![] bcast_S_S32768 (constant (F := Ideal) S_ .f32 0x4479C000#32))
        (subf (broadcastInDim S32768 ![] bcast_S_S32768 (constant (F := Ideal) S_ .f32 0x447A0000#32)) n) j
      = Ideal.div (Ideal.ofBits .f32 0x4479C000#32) (Ideal.ofBits .f32 0x447A0000#32 - n j) := rfl

/-- A presence bit as a float, read at (row, column): the bit's number. -/
theorem bit_apply (l : IVec S32768x10 32) (r : Fin 32768) (i : Fin 10) :
    (uitofp (F := Ideal) .f32 (cmpi .ne l (broadcastInDim S32768x10 ![] bcast_S_S32768x10 (constantI S_ 32 4294967295#32))) : FVec Ideal S32768x10 .f32) (ix2 r i)
      = ((((IntOp.cmpi .ne (l (ix2 r i)) 4294967295#32).toNat : ℕ) : ℝ) : EReal) := rfl

/-- Row `r`'s weight is `999 / (1000 - n)` with `n` the count of the row's present labels. -/
theorem V_weight_apply (c : Dev nD) (r : Fin 32768) :
    (V m c main_v8 : SR.Idx → EReal) (ix1 r) = weight (lrow (labels m c) r) := by
  refine (congrFun (V_weight m c) (ix1 r)).trans ?_
  refine (quot_apply _ (ix1 r)).trans ?_
  rw [rowSum10]
  unfold weight
  rw [← presentSum_eq]
  refine congrArg (fun s => Ideal.div (Ideal.ofBits .f32 0x4479C000#32) (Ideal.ofBits .f32 0x447A0000#32 - (Ideal.ofBits .f32 0x00000000#32 + s))) ?_
  exact Finset.sum_congr rfl fun i _ => bit_apply _ r i

end Cert.Mcl.Ker

end
-- ==== Proof.KerBody.lean ====
/-
  What the kernel's body leaves in its output block, read at row `p` of the block: the row's weight (the third input block)
  times `0 - log ((∑ k unmarked, e k) / D + ε)` of the row's scores (the first input block) and label words (the second).

  The reading goes operation by operation. The two lane reductions are the row's maximum and a sum over the row; the
  one-column views and the broadcast along the row move a row's entry without changing it; the ten comparisons of the
  column's word against the row's labels, OR-ed, say whether the class is marked; the select puts zero at a marked class
  and the shifted exponential at an unmarked one.
-/
import proofs.«414125_j44590350467563_3_alg».proof.Proof.Gen.KernelIdeal.Frame
import proofs.«414125_j44590350467563_3_alg».proof.Proof.RowSpec
import Idealize.ShloMosaic.Lib.Pipeline.Value
import Idealize.ShloMosaic.Lib.ValueLayout
import Idealize.ShloMosaic.Lib.StableHlo.Predicate

noncomputable section

namespace Cert.Mcl

open Idealize.ShloMosaic Idealize.ShloMosaic.ValueIdx Cert.KernelIdeal Cert.KernelIdeal.Gen

/-- Inserting column `k` into the row index `p` gives the index `(p, k)`. -/
theorem lift_row (p : Fin 1024) (k : Fin 1000) :
    reduces_S1024x1000_S1024.lift (ix1 p) k = ix2 p k := by
  funext a
  match a with
  | ⟨0, _⟩ => exact Fin.ext rfl
  | ⟨1, _⟩ => exact Fin.ext rfl

/-- The row maximum the vector unit takes along axis 1 is the row's maximum. -/
theorem rowmax_read (v : FVec Ideal S1024x1000 .f32) (p : Fin 1024) :
    multiReduction .maximumf [1] S1024 v 0xFF800000#32 reduces_S1024x1000_S1024 (.inl rfl) rfl (ix1 p)
      = rowMax (fun k => v (ix2 p k)) := by
  refine (Ideal.multiReduction_maximumf_single v 0xFF800000#32 reduces_S1024x1000_S1024 (.inl rfl) rfl (ix1 p)).trans ?_
  unfold rowMax
  show (Finset.univ : Finset (Fin 1000)).fold max (Ideal.ofBits .f32 0xFF800000#32) _ = _
  congr 1
  funext k
  exact congrArg v (lift_row p k)

/-- The row sum the vector unit takes along axis 1 is the sum over the row. -/
theorem rowsum_read (v : FVec Ideal S1024x1000 .f32) (p : Fin 1024) :
    multiReduction .add [1] S1024 v 0x00000000#32 reduces_S1024x1000_S1024 (.inl rfl) rfl (ix1 p)
      = ∑ k : Fin 1000, v (ix2 p k) := by
  refine (Ideal.multiReduction_add_single v 0x00000000#32 reduces_S1024x1000_S1024 (.inl rfl) rfl (ix1 p)).trans ?_
  show ∑ k : Fin 1000, _ = _
  exact Finset.sum_congr rfl fun k _ => congrArg v (lift_row p k)

/-- A vector of one entry per row viewed as a one-column matrix reads the row's entry. -/
theorem col_read {α : Type} (u : S1024.Idx → α) (p : Fin 1024) (z : Fin 1) :
    shapeCast S1024x1 u shapeCasts_S1024_S1024x1 (ix2 p z) = u (ix1 p) := by
  refine shapeCast_apply u shapeCasts_S1024_S1024x1 (ix2 p z) (ix1 p) ?_
  rw [Shape.rowMajor_val_one, Shape.rowMajor_val_two]
  show p.val = p.val * 1 + z.val
  omega

/-- And back: a one-column matrix viewed as a vector reads the row's one entry. -/
theorem uncol_read {α : Type} (u : S1024x1.Idx → α) (p : Fin 1024) :
    shapeCast S1024 u shapeCasts_S1024x1_S1024 (ix1 p) = u (ix2 p (0 : Fin 1)) := by
  refine shapeCast_apply u shapeCasts_S1024x1_S1024 (ix1 p) (ix2 p (0 : Fin 1)) ?_
  rw [Shape.rowMajor_val_one, Shape.rowMajor_val_two]
  show p.val * 1 + 0 = p.val
  omega

/-- A one-column matrix broadcast along the rows reads the row's one entry. -/
theorem bcast_read {α : Type} (u : S1024x1.Idx → α) (p : Fin 1024) (k : Fin 1000) :
    broadcastTo S1024x1000 u broadcasts_S1024x1_S1024x1000 (ix2 p k) = u (ix2 p (0 : Fin 1)) := by
  refine broadcastTo_apply u broadcasts_S1024x1_S1024x1000 (ix2 p k) (ix2 p (0 : Fin 1)) ?_
  intro a
  match a with
  | ⟨0, _⟩ => rfl
  | ⟨1, _⟩ => rfl

/-- The shifted exponential the body computes, at row `p` and column `k`. -/
theorem pay2_read (v : Vec Ideal S1024x1000 .f32) (p : Fin 1024) (k : Fin 1000) :
    k0_pay2 (F := Ideal) v (ix2 p k) = expo (fun k => v (ix2 p k)) k := by
  unfold k0_pay2 expo
  show Ideal.exp (v (ix2 p k) - broadcastTo S1024x1000 _ broadcasts_S1024x1_S1024x1000 (ix2 p k)) = _
  rw [bcast_read, col_read, rowmax_read]

/-- The softmax denominator the body computes, at row `p`. -/
theorem pay3_read (v : Vec Ideal S1024x1000 .f32) (p : Fin 1024) :
    k0_pay3 (F := Ideal) v (ix2 p (0 : Fin 1)) = denom (fun k => v (ix2 p k)) := by
  unfold k0_pay3 denom
  show shapeCast S1024x1 _ shapeCasts_S1024_S1024x1 (ix2 p (0 : Fin 1)) = _
  rw [col_read, rowsum_read]
  exact Finset.sum_congr rfl fun k _ => pay2_read v p k

/-- The body's last step at row `p`: the weight times `0 - log (rowsum / D + ε)`. -/
theorem pay1_read (v7 : FVec Ideal S1024x1 .f32) (v51 : FVec Ideal S1024x1000 .f32) (v61 : Vec Ideal S1024 .f32) (p : Fin 1024) :
    k0_pay1 (F := Ideal) v7 v51 v61 (ix1 p)
      = v61 (ix1 p) * negLog (Ideal.div (∑ k : Fin 1000, v51 (ix2 p k)) (v7 (ix2 p (0 : Fin 1)))) := by
  unfold k0_pay1 negLog
  rw [shapeCast_self]
  show v61 (ix1 p) * shapeCast S1024 _ shapeCasts_S1024x1_S1024 (ix1 p) = _
  rw [uncol_read]
  show v61 (ix1 p) * (Ideal.ofBits .f32 0x00000000#32 - Ideal.log (Ideal.div (shapeCast S1024x1 _ shapeCasts_S1024_S1024x1 (ix2 p (0 : Fin 1))) (v7 (ix2 p (0 : Fin 1))) + Ideal.ofBits .f32 0x33D6BF95#32)) = _
  rw [col_read, rowsum_read, Ideal.ofBits_zero_f32]

/-- For one-bit words, an OR is `1` exactly when one operand is. -/
theorem ori_one_iff (a b : BitVec 1) : IntOp.ori a b = 1#1 ↔ a = 1#1 ∨ b = 1#1 := by
  rcases BitVec.eq_zero_or_eq_one a with rfl | rfl <;> rcases BitVec.eq_zero_or_eq_one b with rfl | rfl <;> decide

/-- The ten-fold OR of one-bit words is `1` exactly when one of the ten is. -/
theorem or10_one_iff (c : Fin 10 → BitVec 1) :
    IntOp.ori (IntOp.ori (IntOp.ori (IntOp.ori (IntOp.ori (IntOp.ori (IntOp.ori (IntOp.ori (IntOp.ori (c 0) (c 1)) (c 2)) (c 3)) (c 4)) (c 5)) (c 6)) (c 7)) (c 8)) (c 9) = 1#1 ↔ ∃ i : Fin 10, c i = 1#1 := by
  simp only [ori_one_iff]
  constructor
  · rintro (((((((((h | h) | h) | h) | h) | h) | h) | h) | h) | h)
    exacts [⟨0, h⟩, ⟨1, h⟩, ⟨2, h⟩, ⟨3, h⟩, ⟨4, h⟩, ⟨5, h⟩, ⟨6, h⟩, ⟨7, h⟩, ⟨8, h⟩, ⟨9, h⟩]
  · rintro ⟨i, hi⟩
    fin_cases i
    · exact (Or.inl (Or.inl (Or.inl (Or.inl (Or.inl (Or.inl (Or.inl (Or.inl (Or.inl hi)))))))))
    · exact (Or.inl (Or.inl (Or.inl (Or.inl (Or.inl (Or.inl (Or.inl (Or.inl (Or.inr hi)))))))))
    · exact (Or.inl (Or.inl (Or.inl (Or.inl (Or.inl (Or.inl (Or.inl (Or.inr hi))))))))
    · exact (Or.inl (Or.inl (Or.inl (Or.inl (Or.inl (Or.inl (Or.inr hi)))))))
    · exact (Or.inl (Or.inl (Or.inl (Or.inl (Or.inl (Or.inr hi))))))
    · exact (Or.inl (Or.inl (Or.inl (Or.inl (Or.inr hi)))))
    · exact (Or.inl (Or.inl (Or.inl (Or.inr hi))))
    · exact (Or.inl (Or.inl (Or.inr hi)))
    · exact (Or.inl (Or.inr hi))
    · exact (Or.inr hi)

/-- Column `i` of the labels, broadcast along the row, reads the row's label `i`. -/
theorem label_read (w : IVec S1024x10 32) (o : Nat) (h : S1024x10.Slices ![0, o] S1024x1) (i : Fin 10) (hi : i.val = o)
    (p : Fin 1024) (k : Fin 1000) :
    broadcastTo S1024x1000 (extractStridedSlice S1024x1 ![0, o] w h) broadcasts_S1024x1_S1024x1000 (ix2 p k) = w (ix2 p i) := by
  rw [bcast_read]
  exact slice2_axis1_apply o w h p (0 : Fin 1) i (by show i.val = o + 0; omega)

/-- The column counter along axis 1 reads the column as a word. -/
theorem iota_read (p : Fin 1024) (k : Fin 1000) :
    iota .tc S1024x1000 32 [1] iota_S1024x1000_d1_w32 (ix2 p k) = BitVec.ofNat 32 k.val :=
  iota_single_apply .tc S1024x1000 32 1 iota_S1024x1000_d1_w32 (ix2 p k)

/-- One comparison of the mask: the column's word against the row's label `i`. -/
theorem cmp_read (w : IVec S1024x10 32) (o : Nat) (h : S1024x10.Slices ![0, o] S1024x1) (i : Fin 10) (hi : i.val = o)
    (p : Fin 1024) (k : Fin 1000) :
    cmpi .eq (iota .tc S1024x1000 32 [1] iota_S1024x1000_d1_w32)
        (broadcastTo S1024x1000 (extractStridedSlice S1024x1 ![0, o] w h) broadcasts_S1024x1_S1024x1000) (ix2 p k)
      = IntOp.cmpi .eq (BitVec.ofNat 32 k.val) (w (ix2 p i)) := by
  show IntOp.cmpi .eq (iota .tc S1024x1000 32 [1] iota_S1024x1000_d1_w32 (ix2 p k)) (broadcastTo S1024x1000 (extractStridedSlice S1024x1 ![0, o] w h) broadcasts_S1024x1_S1024x1000 (ix2 p k)) = _
  rw [iota_read, label_read w o h i hi]

/-- A select on the ten-fold OR of one-bit words is the `if` on "one of the ten is `1`". -/
theorem select_or10 {α : Type} (c : Fin 10 → BitVec 1) (P : Prop) [Decidable P] (hP : P ↔ ∃ i : Fin 10, c i = 1#1) (a b : α) :
    Scalar.select (IntOp.ori (IntOp.ori (IntOp.ori (IntOp.ori (IntOp.ori (IntOp.ori (IntOp.ori (IntOp.ori (IntOp.ori (c 0) (c 1)) (c 2)) (c 3)) (c 4)) (c 5)) (c 6)) (c 7)) (c 8)) (c 9)) a b = if P then a else b := by
  by_cases h : P
  · rw [if_pos h, (or10_one_iff c).mpr (hP.mp h), select_one]
  · rw [if_neg h, eq_zero_of_ne_one (fun h1 => h (hP.mpr ((or10_one_iff c).mp h1))), select_zero]

/-- The masked exponential the body computes, at row `p` and column `k`: zero at a marked class, the shifted
    exponential at an unmarked one. -/
theorem pay4_read (v : Vec Ideal S1024x1000 .f32) (w : Vec Ideal S1024x10 .i32) (p : Fin 1024) (k : Fin 1000) :
    k0_pay4 (F := Ideal) v w (ix2 p k)
      = if markedBy (fun i => w (ix2 p i)) k then (0 : EReal) else expo (fun k => v (ix2 p k)) k := by
  unfold k0_pay4
  rw [shapeCast_self]
  show Scalar.select (IntOp.ori (IntOp.ori (IntOp.ori (IntOp.ori (IntOp.ori (IntOp.ori (IntOp.ori (IntOp.ori (IntOp.ori ((cmpi .eq (iota .tc S1024x1000 32 [1] iota_S1024x1000_d1_w32) (broadcastTo S1024x1000 (extractStridedSlice S1024x1 ![0, 0] w slices_S1024x10_o0_0_S1024x1) broadcasts_S1024x1_S1024x1000) (ix2 p k))) (cmpi .eq (iota .tc S1024x1000 32 [1] iota_S1024x1000_d1_w32) (broadcastTo S1024x1000 (extractStridedSlice S1024x1 ![0, 1] w slices_S1024x10_o0_1_S1024x1) broadcasts_S1024x1_S1024x1000) (ix2 p k))) (cmpi .eq (iota .tc S1024x1000 32 [1] iota_S1024x1000_d1_w32) (broadcastTo S1024x1000 (extractStridedSlice S1024x1 ![0, 2] w slices_S1024x10_o0_2_S1024x1) broadcasts_S1024x1_S1024x1000) (ix2 p k))) (cmpi .eq (iota .tc S1024x1000 32 [1] iota_S1024x1000_d1_w32) (broadcastTo S1024x1000 (extractStridedSlice S1024x1 ![0, 3] w slices_S1024x10_o0_3_S1024x1) broadcasts_S1024x1_S1024x1000) (ix2 p k))) (cmpi .eq (iota .tc S1024x1000 32 [1] iota_S1024x1000_d1_w32) (broadcastTo S1024x1000 (extractStridedSlice S1024x1 ![0, 4] w slices_S1024x10_o0_4_S1024x1) broadcasts_S1024x1_S1024x1000) (ix2 p k))) (cmpi .eq (iota .tc S1024x1000 32 [1] iota_S1024x1000_d1_w32) (broadcastTo S1024x1000 (extractStridedSlice S1024x1 ![0, 5] w slices_S1024x10_o0_5_S1024x1) broadcasts_S1024x1_S1024x1000) (ix2 p k))) (cmpi .eq (iota .tc S1024x1000 32 [1] iota_S1024x1000_d1_w32) (broadcastTo S1024x1000 (extractStridedSlice S1024x1 ![0, 6] w slices_S1024x10_o0_6_S1024x1) broadcasts_S1024x1_S1024x1000) (ix2 p k))) (cmpi .eq (iota .tc S1024x1000 32 [1] iota_S1024x1000_d1_w32) (broadcastTo S1024x1000 (extractStridedSlice S1024x1 ![0, 7] w slices_S1024x10_o0_7_S1024x1) broadcasts_S1024x1_S1024x1000) (ix2 p k))) (cmpi .eq (iota .tc S1024x1000 32 [1] iota_S1024x1000_d1_w32) (broadcastTo S1024x1000 (extractStridedSlice S1024x1 ![0, 8] w slices_S1024x10_o0_8_S1024x1) broadcasts_S1024x1_S1024x1000) (ix2 p k))) (cmpi .eq (iota .tc S1024x1000 32 [1] iota_S1024x1000_d1_w32) (broadcastTo S1024x1000 (extractStridedSlice S1024x1 ![0, 9] w slices_S1024x10_o0_9_S1024x1) broadcasts_S1024x1_S1024x1000) (ix2 p k))) (Ideal.ofBits .f32 0x00000000#32) (k0_pay2 (F := Ideal) v (ix2 p k)) = _
  rw [cmp_read w 0 slices_S1024x10_o0_0_S1024x1 0 rfl p k,
    cmp_read w 1 slices_S1024x10_o0_1_S1024x1 1 rfl p k,
    cmp_read w 2 slices_S1024x10_o0_2_S1024x1 2 rfl p k,
    cmp_read w 3 slices_S1024x10_o0_3_S1024x1 3 rfl p k,
    cmp_read w 4 slices_S1024x10_o0_4_S1024x1 4 rfl p k,
    cmp_read w 5 slices_S1024x10_o0_5_S1024x1 5 rfl p k,
    cmp_read w 6 slices_S1024x10_o0_6_S1024x1 6 rfl p k,
    cmp_read w 7 slices_S1024x10_o0_7_S1024x1 7 rfl p k,
    cmp_read w 8 slices_S1024x10_o0_8_S1024x1 8 rfl p k,
    cmp_read w 9 slices_S1024x10_o0_9_S1024x1 9 rfl p k,
    pay2_read, Ideal.ofBits_zero_f32]
  exact select_or10 (fun i => IntOp.cmpi .eq (BitVec.ofNat 32 k.val) (w (ix2 p i))) (markedBy (fun i => w (ix2 p i)) k)
    (exists_congr fun i => StableHlo.Predicate.cmpi_eq_iff.symm) 0 (expo (fun k => v (ix2 p k)) k)

theorem body_row (x0 : Vec Ideal S1024x1000 .f32) (x1 : Vec Ideal S1024x10 .i32) (x2 : Vec Ideal S1024 .f32) (p : Fin 1024) :
    out0_3 (F := Ideal) x0 x1 x2 (ix1 p)
      = x2 (ix1 p) * negLog (Ideal.div (keptNumBy (fun k => x0 (ix2 p k)) (fun i => x1 (ix2 p i))) (denom (fun k => x0 (ix2 p k)))) := by
  have hz2 : (![0, 0] : Fin 2 → Nat) = fun _ => 0 := funext fun a => by fin_cases a <;> rfl
  have hz1 : (![0] : Fin 1 → Nat) = fun _ => 0 := funext fun a => by fin_cases a <;> rfl
  unfold out0_3
  rw [View.canon_unit_zero hz1]
  simp only [View.ld_unit_zero (S := S1024x1000) hz2, View.ld_unit_zero (S := S1024x10) hz2, View.ld_unit_zero (S := S1024) hz1]
  rw [pay1_read, pay3_read]
  unfold keptNumBy
  rw [Finset.sum_congr rfl fun k _ => pay4_read x0 x1 p k]

end Cert.Mcl

end
-- ==== Proof.KerArray.lean ====
/-
  From the kernel's blocks to its output array.

  The grid has 32 points; point `t` works on rows `1024·t … 1024·t + 1023`: its first input block is those rows of the score
  array (all 1000 columns), its second those rows of the replaced labels, its third those entries of the weight vector, and
  it writes those entries of the output vector.  Row `p` of what point `t` writes back is the loss of row `1024·t + p`;
  the 32 blocks tile the output vector, so after the run the output vector is the vector of the rows' losses.
-/
import proofs.«414125_j44590350467563_3_alg».proof.Proof.Gen.KernelIdeal.Frame
import proofs.«414125_j44590350467563_3_alg».proof.Proof.RowSpec
import proofs.«414125_j44590350467563_3_alg».proof.Proof.KerHost
import proofs.«414125_j44590350467563_3_alg».proof.Proof.KerBody
import Idealize.ShloMosaic.Lib.Pipeline.Value

set_option maxRecDepth 16384

noncomputable section

namespace Cert.Mcl.Ker

open Idealize.ShloMosaic Idealize.ShloMosaic.TcCoe Idealize.ShloMosaic.ValueIdx Idealize.SL.Sem
open Idealize.ShloMosaic.Pipeline (Dat)
open Cert.KernelIdeal Cert.KernelIdeal.Gen Cert.Mcl

variable (m : (ℓ : Loc nD τ sig) → Buf (Elt Ideal) ℓ)

/-- A grid point's number is below 32. -/
theorem pt_lt (t : Fin cfg0.N) : t.val < 32 := by
  have h := t.isLt
  have hN : cfg0.N = 32 := N_0
  omega

/-- The row of the arrays that row `p` of point `t`'s blocks is. -/
def rowAt (t : Fin cfg0.N) (p : Fin 1024) : Fin 32768 :=
  ⟨t.val * 1024 + p.val, by have := pt_lt t; have := p.isLt; omega⟩

/-- The printed index maps over the grid: every window's block index along the rows is the point's number, and the two
    rectangular windows sit at column block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val ∧ win0_3.index t (0 : Fin 1) = t.val :=
  (by decide +kernel : ∀ t : Fin grid0.N, _)

/-- Point `t`'s three input blocks, at their literal types. -/
abbrev xblk (c : Dev nD) (t : Fin cfg0.N) : Vec Ideal S1024x1000 .f32 := iblk m c 0 t
abbrev lblk (c : Dev nD) (t : Fin cfg0.N) : Vec Ideal S1024x10 .i32 := iblk m c 1 t
abbrev wblk (c : Dev nD) (t : Fin cfg0.N) : Vec Ideal S1024 .f32 := iblk m c 2 t

/-- Entry (p, k) of point `t`'s score block is entry (1024·t + p, k) of the score array. -/
theorem blk_scores (c : Dev nD) (t : Fin cfg0.N) (p : Fin 1024) (k : Fin 1000) :
    xblk m c t (ix2 p k) = scores m c (ix2 (rowAt t p) k) := by
  obtain ⟨e0, e1, -, -, -, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = t.val * 1024 + p.val; rw [e0]; omega
  | ⟨1, _⟩ => show win0_0.index t (1 : Fin 2) * 1000 + 1 * k.val = k.val; rw [e1]; omega

/-- Entry (p, i) of point `t`'s label block is the replaced label (1024·t + p, i). -/
theorem blk_labels (c : Dev nD) (t : Fin cfg0.N) (p : Fin 1024) (i : Fin 10) :
    lblk m c t (ix2 p i) = safeLab (labels m c (ix2 (rowAt t p) i)) := by
  obtain ⟨-, -, e0, e1, -, -⟩ := idx_facts t
  show V m c main_v4 (((cfg0.win 1).blk t).view.emb (ix2 p i)) = _
  rw [V_safe]
  refine congrArg (fun j => safeLab (labels m c j)) (funext fun a => Fin.ext ?_)
  match a with
  | ⟨0, _⟩ => show win0_1.index t (0 : Fin 2) * 1024 + 1 * p.val = t.val * 1024 + p.val; rw [e0]; omega
  | ⟨1, _⟩ => show win0_1.index t (1 : Fin 2) * 10 + 1 * i.val = i.val; rw [e1]; omega

/-- Entry `p` of point `t`'s weight block is the weight of row 1024·t + p. -/
theorem blk_weight (c : Dev nD) (t : Fin cfg0.N) (p : Fin 1024) :
    wblk m c t (ix1 p) = weight (lrow (labels m c) (rowAt t p)) := by
  obtain ⟨-, -, -, -, e0, -⟩ := idx_facts t
  show V m c main_v8 (((cfg0.win 2).blk t).view.emb (ix1 p)) = _
  have he : ((cfg0.win 2).blk t).view.emb (ix1 p) = (ix1 (rowAt t p) : S32768.Idx) :=
    funext fun a => Fin.ext (by
      match a with
      | ⟨0, _⟩ => show win0_2.index t (0 : Fin 1) * 1024 + 1 * p.val = t.val * 1024 + p.val; rw [e0]; omega)
  rw [he]
  exact V_weight_apply m c (rowAt t p)

/-- WHAT POINT `t` WRITES BACK is block `t` of the vector of the rows' losses. -/
theorem flushed_eq (c : Dev nD) (t : Fin cfg0.N) :
    (dats m 0 c).flushed 3 t = ((cfg0.win 3).blk t).view.read (Elt Ideal) (lossArr (scores m c) (labels m c)) := by
  show (cfg0.win 3).cut (grid0.coords t) ((dats m 0 c).after 3 t) = _
  rw [after0_3]
  obtain ⟨-, -, -, -, -, e3⟩ := idx_facts t
  refine funext fun y => ?_
  obtain ⟨p, rfl⟩ : ∃ p : Fin 1024, y = ix1 p := ⟨⟨(y 0).val, (y 0).isLt⟩, funext fun a => match a with | ⟨0, _⟩ => rfl⟩
  show out0_3 (F := Ideal) (xblk m c t) (lblk m c t) (wblk m c t) (ix1 p)
    = lossArr (scores m c) (labels m c) (((cfg0.win 3).blk t).view.emb (ix1 p))
  refine (body_row (xblk m c t) (lblk m c t) (wblk m c t) p).trans ?_
  have he : ((cfg0.win 3).blk t).view.emb (ix1 p) = (ix1 (rowAt t p) : S32768.Idx) :=
    funext fun a => Fin.ext (by
      match a with
      | ⟨0, _⟩ => show win0_3.index t (0 : Fin 1) * 1024 + 1 * p.val = t.val * 1024 + p.val; rw [e3]; omega)
  rw [he, lossArr_ix1]
  have hx : (fun k : Fin 1000 => xblk m c t (ix2 p k)) = xrow (scores m c) (rowAt t p) :=
    funext fun k => blk_scores m c t p k
  have hl : (fun i : Fin 10 => lblk m c t (ix2 p i)) = safeRow (lrow (labels m c) (rowAt t p)) :=
    funext fun i => blk_labels m c t p i
  rw [blk_weight m c t p, hx, hl]
  rfl

/-- An index of the output vector is in point `t`'s block iff it is in the block's range. -/
theorem mem_blk (t : Fin cfg0.N) (i : S32768.Idx) :
    i ∈ ((cfg0.win 3).blk t).view.set ↔ ∀ a : Fin 1, win0_3.index t a * S1024.size a ≤ (i a).val ∧ (i a).val < win0_3.index t a * S1024.size a + S1024.size a := by
  show i ∈ ((View.whole main_v9).slice (win0_3.rect t)).set ↔ _
  rw [View.set_slice_whole, Rect.mem_set_unit]
  exact Iff.rfl

/-- Every entry of the output vector is in some point's block: entry `r` in point `r / 1024`'s. -/
theorem cover (i : S32768.Idx) : ∃ t : Fin cfg0.N, (cfg0.win 3).flush t = true ∧ i ∈ ((cfg0.win 3).blk t).view.set := by
  have hi : (i 0).val < 32768 := (i 0).isLt
  have hN : cfg0.N = 32 := N_0
  have ht : (i 0).val / 1024 < cfg0.N := by omega
  refine ⟨⟨(i 0).val / 1024, ht⟩, flush0_3 _, ?_⟩
  rw [mem_blk]
  intro a
  have e := (idx_facts ⟨(i 0).val / 1024, ht⟩).2.2.2.2.2
  match a with
  | ⟨0, _⟩ =>
    show win0_3.index ⟨(i 0).val / 1024, ht⟩ (0 : Fin 1) * 1024 ≤ (i 0).val
      ∧ (i 0).val < win0_3.index ⟨(i 0).val / 1024, ht⟩ (0 : Fin 1) * 1024 + 1024
    rw [e]
    show (i 0).val / 1024 * 1024 ≤ (i 0).val ∧ (i 0).val < (i 0).val / 1024 * 1024 + 1024
    omega

/-- THE OUTPUT VECTOR after the run is the vector of the rows' losses. -/
theorem final (c : Dev nD) : (dats m 0 c).arrAt 3 cfg0.N = lossArr (scores m c) (labels m c) :=
  (dats m 0 c).arrAt_eq_of_cover 3 (lossArr (scores m c) (labels m c)) (fun t _ => flushed_eq m c t) cover

end Cert.Mcl.Ker

end
-- ==== Proof.KerRun.lean ====
/-
  The idealized kernel's run, read: it ends with its result at the mean of the rows' losses and its two arguments unchanged.

  After the region the program sums the output vector from the zero word and divides by the word of `32768`: the mean.
  The output vector after the region is the vector of the rows' losses; the result buffer is no array of the pipeline, so
  the frame run states it as the host lines after the region leave it.
-/
import proofs.«414125_j44590350467563_3_alg».proof.Proof.Gen.KernelIdeal.Frame
import proofs.«414125_j44590350467563_3_alg».proof.Proof.RowSpec
import proofs.«414125_j44590350467563_3_alg».proof.Proof.KerHost
import proofs.«414125_j44590350467563_3_alg».proof.Proof.KerArray
import Idealize.ShloMosaic.Lib.StableHlo.Run

noncomputable section

namespace Cert.Mcl.Ker

open Idealize.ShloMosaic Idealize.ShloMosaic.TcCoe Idealize.ShloMosaic.ValueIdx Idealize.SL.Sem Idealize.ShloMosaic.StableHlo
open Cert.KernelIdeal Cert.KernelIdeal.Gen Cert.Mcl

variable (m : (ℓ : Loc nD τ sig) → Buf (Elt Ideal) ℓ) (ρ : Dev nD → PrngReg)

/-- The host lines after the region leave the mean of the rows' losses in the result buffer. -/
theorem tail_eq (c : Dev nD) :
    Pipeline.afterTail₀ cfgs (dats m) 0 (V0 m) [hostOps1] c main_v11 = meanOf (lossArr (scores m c) (labels m c)) := by
  unfold Pipeline.afterTail₀
  show StableHlo.after hostOps1 _ (Proc.devRef .tc main_v11) = _
  after_results
  have h9 : Pipeline.withArrays (cfgs 0).spec c (V0 m c) (fun w => (dats m 0 c).arrAt w (cfgs 0).N) (Proc.devRef .tc main_v9)
      = lossArr (scores m c) (labels m c) :=
    (Pipeline.withArrays_arr spec0 launch0.win.arr_inj c _ _ 3).trans (final m c)
  exact congrArg (fun y : SR.Idx → EReal => meanOf y) h9

/-- Every weakly fair execution of the idealized kernel's program terminates with the result at the mean of the rows'
    losses of the argument arrays, and the argument arrays unchanged. -/
theorem run : θ_run defs (onTc (τ := τ) (main (F := Ideal))) ⟨m, fun _ => 0, ρ⟩ (fun r => ∀ c : Dev nD,
      r.2.mem ((c.tc : Thread nD τ).loc main_v11) = meanOf (lossArr (scores m c) (labels m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v11 (Pipeline.mem_restRefs_of main_v11 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.Mcl.Ker

end
-- ==== Proof.LibScatterConst.lean ====
/-
  A `stablehlo.scatter` whose body returns the update and whose updates are ALL ONE CONSTANT `c`, read at an operand index
  `i`: the result is `c` when some update index lands on `i` (its result index is `some i`), and the operand's element at `i`
  when none does.  For any dimension numbers, any shapes, any element type and any index width.  Repeats among the targets
  and the order of the updates do not matter because the updates are equal: no distinctness of the targets is asked.
  (The model's scatter is a left fold over the update positions in row-major order; an update whose result index lies outside the
  operand is dropped.)  Typical use: a boolean mask built by `zeros.at[rows, cols].set(True, mode='drop')`.
-/
import Idealize.ShloMosaic.PureOps

namespace Cert.Lib.ScatterConst

open Idealize.ShloMosaic

/-- The scatter's fold over any list of update positions, its body "take the update", every update the constant `c`:
    at operand index `i` it is `c` when some position of the list lands on `i`, and the operand's element when none does. -/
theorem scatter_foldl_const {α : Type} {s si u : Shape} {w : Nat} (d : ScatterDims s si u) (idx : IVec si w)
    (upd : u.Idx → α) (c : α) (hc : ∀ j, upd j = c) (i : s.Idx) (x : s.Idx → α) (l : List (Fin u.numel)) :
    ((∃ n ∈ l, d.resultIdx? (u.rowMajor.symm n) idx = some i) →
      l.foldl (fun r n =>
        match d.resultIdx? (u.rowMajor.symm n) idx with
        | some i => fun i' => if i' = i then (fun _ b => b) (r i) (upd (u.rowMajor.symm n)) else r i'
        | none => r) x i = c) ∧
    ((¬ ∃ n ∈ l, d.resultIdx? (u.rowMajor.symm n) idx = some i) →
      l.foldl (fun r n =>
        match d.resultIdx? (u.rowMajor.symm n) idx with
        | some i => fun i' => if i' = i then (fun _ b => b) (r i) (upd (u.rowMajor.symm n)) else r i'
        | none => r) x i = x i) := by
  induction l using List.reverseRecOn with
  | nil => exact ⟨fun ⟨n, hn, _⟩ => absurd hn (List.not_mem_nil), fun _ => rfl⟩
  | append_singleton l n ih =>
    rw [List.foldl_append, List.foldl_cons, List.foldl_nil]
    cases hr : d.resultIdx? (u.rowMajor.symm n) idx with
    | none =>
      have hex : (∃ m ∈ l ++ [n], d.resultIdx? (u.rowMajor.symm m) idx = some i) ↔
          ∃ m ∈ l, d.resultIdx? (u.rowMajor.symm m) idx = some i := by
        constructor
        · rintro ⟨m, hm, h⟩
          rcases List.mem_append.1 hm with hm | hm
          · exact ⟨m, hm, h⟩
          · rw [List.mem_singleton.1 hm, hr] at h; exact absurd h (by simp)
        · rintro ⟨m, hm, h⟩; exact ⟨m, List.mem_append_left _ hm, h⟩
      rw [hex]; exact ih
    | some i0 =>
      by_cases hi : i = i0
      · subst hi
        refine ⟨fun _ => ?_, fun h => absurd ⟨n, by simp, hr⟩ h⟩
        show (if i = i then upd (u.rowMajor.symm n) else _) = c
        rw [if_pos rfl, hc]
      · have hex : (∃ m ∈ l ++ [n], d.resultIdx? (u.rowMajor.symm m) idx = some i) ↔
            ∃ m ∈ l, d.resultIdx? (u.rowMajor.symm m) idx = some i := by
          constructor
          · rintro ⟨m, hm, h⟩
            rcases List.mem_append.1 hm with hm | hm
            · exact ⟨m, hm, h⟩
            · rw [List.mem_singleton.1 hm, hr] at h; exact absurd (Option.some.inj h).symm hi
          · rintro ⟨m, hm, h⟩; exact ⟨m, List.mem_append_left _ hm, h⟩
        rw [hex]
        dsimp only
        rw [if_neg hi]
        exact ih

/-- A scatter whose body takes the update and whose updates are all `c`: at operand index `i` the result is `c` when some
    update index lands on `i`, and the operand's element when none does. -/
theorem scatter_const_apply {α : Type} {s si u : Shape} {w : Nat} (d : ScatterDims s si u) (x : s.Idx → α)
    (idx : IVec si w) (upd : u.Idx → α) (c : α) (hc : ∀ j, upd j = c) (i : s.Idx) :
    ((∃ j : u.Idx, d.resultIdx? j idx = some i) → Host.scatter d (fun _ b => b) x idx upd i = c) ∧
    ((¬ ∃ j : u.Idx, d.resultIdx? j idx = some i) → Host.scatter d (fun _ b => b) x idx upd i = x i) := by
  have H := scatter_foldl_const d idx upd c hc i x (List.finRange u.numel)
  have hex : (∃ n ∈ List.finRange u.numel, d.resultIdx? (u.rowMajor.symm n) idx = some i) ↔
      ∃ j : u.Idx, d.resultIdx? j idx = some i := by
    constructor
    · rintro ⟨n, _, h⟩; exact ⟨u.rowMajor.symm n, h⟩
    · rintro ⟨j, h⟩
      exact ⟨u.rowMajor j, List.mem_finRange _, by rw [Equiv.symm_apply_apply]; exact h⟩
  rw [hex] at H
  exact H

end Cert.Lib.ScatterConst
-- ==== Proof.RefMask.lean ====
/-
  The reference's scattered mask, read at (row r, class k): it is set exactly when class `k` is marked by row `r`'s labels.

  The scatter writes `true` at every index pair (row, replaced label) that lies inside the [32768 × 1000] array, and drops the
  others; the row coordinate of update (r, i) is `r` itself, and a replaced label that is at least `0` is not moved by the
  negative-index wrap (`l < 0 ? l + 1000 : l`).  With every label at least `-1`, a replaced label is never negative.

  Three parts.  (i) A scatter whose body takes the update and whose updates are all one constant `c` holds `c` at an
  operand index some update lands on and the operand's element elsewhere: the order of the updates and repeats among their
  targets do not matter because the updates are equal (the general lemma of the module LibScatterConst).  (ii) For this program's dimension numbers (no window axes, both
  operand axes inserted, index vector on the last axis) update (r', i) lands at (row, class) exactly when the index array's two
  components at (r', i), read signed, are the row and the class.  (iii) The index array's first component at (r', i) is the word
  of `r'` and its second the replaced label, both unmoved by the wrap.
-/
import proofs.«414125_j44590350467563_3_alg».proof.Proof.Gen.ReferenceIdeal.Read
import proofs.«414125_j44590350467563_3_alg».proof.Proof.RowSpec
import proofs.«414125_j44590350467563_3_alg».proof.Proof.LibScatterConst
import Idealize.ShloMosaic.Lib.StableHlo.Predicate

noncomputable section

namespace Cert.Mcl

open Idealize.ShloMosaic Idealize.ShloMosaic.ValueIdx

open Cert.Lib.ScatterConst

section Aux

open Cert.ReferenceIdeal Cert.ReferenceIdeal.Gen Cert.ReferenceIdeal.Read
open Idealize.ShloMosaic.StableHlo.Predicate (ofBool_eq_one_iff toInt_ofNat_small)

/-! ## (ii) Where an update lands, for this program's dimension numbers -/

/-- The program's scatter dimension numbers. -/
abbrev scD : ScatterDims S32768x1000 S32768x10x2 S32768x10 := scatter_S32768x1000_S32768x10x2_S32768x10_n_01_01_2

/-- Update (r', i) reads component `c` of its start index at (r', i, c). -/
theorem scD_siIdx (j : S32768x10.Idx) (c : Fin 2) :
    scD.siIdx j c = ix3 (n0 := 32768) (n1 := 10) (n2 := 2) ⟨(j 0).val, (j 0).isLt⟩ ⟨(j 1).val, (j 1).isLt⟩ c := by
  funext b
  match b with
  | ⟨0, _⟩ => rfl
  | ⟨1, _⟩ => rfl
  | ⟨2, _⟩ => rfl

/-- Both operand axes are inserted: there is no window coordinate. -/
theorem scD_window (j : S32768x10.Idx) (a : Fin 2) : scD.window j a = 0 := by
  match a with
  | ⟨0, _⟩ => rfl
  | ⟨1, _⟩ => rfl

/-- The start on the row axis is the start index's component 0, read signed. -/
theorem scD_start0 (j : S32768x10.Idx) (idx : IVec S32768x10x2 32) :
    scD.start j idx (0 : Fin 2) = (idx (scD.siIdx j (0 : Fin 2))).toInt := rfl

/-- The start on the class axis is the start index's component 1, read signed. -/
theorem scD_start1 (j : S32768x10.Idx) (idx : IVec S32768x10x2 32) :
    scD.start j idx (1 : Fin 2) = (idx (scD.siIdx j (1 : Fin 2))).toInt := rfl

/-- Update (r', i) lands at (r, k) exactly when its two index components, read signed, are `r` and `k`. -/
theorem scD_resultIdx_iff (idx : IVec S32768x10x2 32) (r' : Fin 32768) (i : Fin 10) (r : Fin 32768) (k : Fin 1000) :
    scD.resultIdx? (ix2 r' i) idx = some (ix2 r k) ↔
      (idx (ix3 r' i (0 : Fin 2))).toInt = (r.val : ℤ) ∧ (idx (ix3 r' i (1 : Fin 2))).toInt = (k.val : ℤ) := by
  have s0 : scD.start (ix2 r' i) idx (0 : Fin 2) = (idx (ix3 r' i (0 : Fin 2))).toInt := by
    rw [scD_start0, scD_siIdx]
  have s1 : scD.start (ix2 r' i) idx (1 : Fin 2) = (idx (ix3 r' i (1 : Fin 2))).toInt := by
    rw [scD_start1, scD_siIdx]
  unfold ScatterDims.resultIdx?
  by_cases h : ∀ a, 0 ≤ scD.start (ix2 r' i) idx a + scD.window (ix2 r' i) a ∧
      scD.start (ix2 r' i) idx a + scD.window (ix2 r' i) a < S32768x1000.size a
  · rw [dif_pos h]
    constructor
    · intro e
      have e' := Option.some.inj e
      have e0 : (scD.start (ix2 r' i) idx (0 : Fin 2) + scD.window (ix2 r' i) (0 : Fin 2)).toNat = r.val :=
        congrArg Fin.val (congrFun e' (0 : Fin 2))
      have e1 : (scD.start (ix2 r' i) idx (1 : Fin 2) + scD.window (ix2 r' i) (1 : Fin 2)).toNat = k.val :=
        congrArg Fin.val (congrFun e' (1 : Fin 2))
      have h0 := (h 0).1
      have h1 := (h 1).1
      rw [s0, scD_window] at e0 h0
      rw [s1, scD_window] at e1 h1
      constructor <;> omega
    · rintro ⟨hA, hB⟩
      congr 1
      funext a
      match a with
      | ⟨0, _⟩ =>
        apply Fin.ext
        show (scD.start (ix2 r' i) idx (0 : Fin 2) + scD.window (ix2 r' i) (0 : Fin 2)).toNat = r.val
        rw [s0, scD_window, hA]; simp
      | ⟨1, _⟩ =>
        apply Fin.ext
        show (scD.start (ix2 r' i) idx (1 : Fin 2) + scD.window (ix2 r' i) (1 : Fin 2)).toNat = k.val
        rw [s1, scD_window, hB]; simp
  · rw [dif_neg h]
    constructor
    · intro e; exact absurd e (by simp)
    · rintro ⟨hA, hB⟩
      exfalso; apply h
      intro a
      match a with
      | ⟨0, _⟩ =>
        show 0 ≤ scD.start (ix2 r' i) idx (0 : Fin 2) + scD.window (ix2 r' i) (0 : Fin 2) ∧
          scD.start (ix2 r' i) idx (0 : Fin 2) + scD.window (ix2 r' i) (0 : Fin 2) < ((32768 : ℕ) : ℤ)
        rw [s0, scD_window, hA]; have := r.isLt; omega
      | ⟨1, _⟩ =>
        show 0 ≤ scD.start (ix2 r' i) idx (1 : Fin 2) + scD.window (ix2 r' i) (1 : Fin 2) ∧
          scD.start (ix2 r' i) idx (1 : Fin 2) + scD.window (ix2 r' i) (1 : Fin 2) < ((1000 : ℕ) : ℤ)
        rw [s1, scD_window, hB]; have := k.isLt; omega

/-! ## (iii) The index array at an update, and the words it holds -/

/-- A word that is not negative as a signed word is left alone by the negative-index wrap. -/
theorem wrap_of_nonneg (w c : BitVec 32) (hw : 0 ≤ w.toInt) :
    Scalar.select (IntOp.cmpi .slt w 0#32) (IntOp.addi w c) w = w := by
  have : IntOp.cmpi .slt w 0#32 = 0#1 := by
    unfold IntOp.cmpi
    show BitVec.ofBool (w.slt 0#32) = 0#1
    have : w.slt 0#32 = false := by
      rw [BitVec.slt]; simp; omega
    rw [this]; rfl
  rw [this]; rfl

/-- With the label at least `-1`, the replaced label is not negative. -/
theorem safeLab_nonneg (l : BitVec 32) (hl : IntOp.cmpi .sge l 4294967295#32 = 1#1) : 0 ≤ (safeLab l).toInt := by
  unfold safeLab
  by_cases h : l = 4294967295#32
  · subst h; decide
  · have hne : IntOp.cmpi .ne l 4294967295#32 = 1#1 := by
      unfold IntOp.cmpi
      show BitVec.ofBool (l != 4294967295#32) = 1#1
      rw [ofBool_eq_one_iff]; simpa using h
    rw [hne]
    show 0 ≤ l.toInt
    have h1 : (4294967295#32 : BitVec 32).sle l = true := by
      unfold IntOp.cmpi at hl
      exact (ofBool_eq_one_iff _).1 hl
    rw [BitVec.sle] at h1
    have h2 : (4294967295#32 : BitVec 32).toInt = -1 := by decide
    rw [h2] at h1
    have h3 : l.toInt ≠ -1 := fun e => h (BitVec.toInt_inj.1 (e.trans h2.symm))
    have h4 : (-1 : ℤ) ≤ l.toInt := by simpa using h1
    omega

/-- A word reads, signed, as the number `k` (below `2 ^ 31`) exactly when it is the word of `k`. -/
theorem toInt_eq_iff (w : BitVec 32) (k : ℕ) (hk : k < 2 ^ 31) : w.toInt = (k : ℤ) ↔ BitVec.ofNat 32 k = w := by
  rw [← toInt_ofNat_small k hk, BitVec.toInt_inj]
  exact eq_comm

/-- The index array's component 0 at update (r', i) is the first piece of the concatenation there. -/
theorem v33_at0 (x1 : IVec SL 32) (r' : Fin 32768) (i : Fin 10) :
    val_main_v33 (F := Ideal) x1 (ix3 r' i (0 : Fin 2)) = val_main_v31 (F := Ideal) (ix3 r' i (0 : Fin 1)) := by
  unfold val_main_v33
  generalize val_main_v31 (F := Ideal) = y1
  generalize val_main_v32 (F := Ideal) x1 = y2
  exact concatenate_pair_apply_left (2 : Fin 3) y1 y2 concatenates_S32768x10x1_S32768x10x1_S32768x10x2_d2
    (ix3 r' i (0 : Fin 2)) rfl (ix3 r' i (0 : Fin 1)) (fun b => match b with
      | ⟨0, _⟩ => rfl
      | ⟨1, _⟩ => rfl
      | ⟨2, _⟩ => rfl)

/-- Its component 1 is the second piece. -/
theorem v33_at1 (x1 : IVec SL 32) (r' : Fin 32768) (i : Fin 10) :
    val_main_v33 (F := Ideal) x1 (ix3 r' i (1 : Fin 2)) = val_main_v32 (F := Ideal) x1 (ix3 r' i (0 : Fin 1)) := by
  unfold val_main_v33
  generalize val_main_v31 (F := Ideal) = y1
  generalize val_main_v32 (F := Ideal) x1 = y2
  exact concatenate_pair_apply_right (2 : Fin 3) y1 y2 concatenates_S32768x10x1_S32768x10x1_S32768x10x2_d2
    (ix3 r' i (1 : Fin 2)) rfl rfl (ix3 r' i (0 : Fin 1)) (fun b => match b with
      | ⟨0, _⟩ => fun _ => rfl
      | ⟨1, _⟩ => fun _ => rfl
      | ⟨2, _⟩ => fun hb => absurd rfl hb) rfl

/-- The row component is the row number's word, through the wrap. -/
theorem v31_at (r' : Fin 32768) (i : Fin 10) :
    val_main_v31 (F := Ideal) (ix3 r' i (0 : Fin 1)) =
      Scalar.select (IntOp.cmpi .slt (BitVec.ofNat 32 r'.val) 0#32) (IntOp.addi (BitVec.ofNat 32 r'.val) 32768#32)
        (BitVec.ofNat 32 r'.val) := by
  rw [val_main_v31_apply, val_main_v30_apply, val_main_v24_apply, val_main_v21_apply, val_main_v23_apply,
    val_main_v17_apply, val_main_v16_apply, val_main_v20_apply, val_main_c_5_apply, val_main_v22_apply, val_main_c_6_apply]

/-- The class component is the replaced label, through the wrap. -/
theorem v32_at (x1 : IVec SL 32) (r' : Fin 32768) (i : Fin 10) :
    val_main_v32 (F := Ideal) x1 (ix3 r' i (0 : Fin 1)) =
      Scalar.select (IntOp.cmpi .slt (safeLab (x1 (ix2 r' i))) 0#32) (IntOp.addi (safeLab (x1 (ix2 r' i))) 1000#32)
        (safeLab (x1 (ix2 r' i))) := by
  have h18 : val_main_v18 (F := Ideal) x1 (ix2 r' i) = safeLab (x1 (ix2 r' i)) := by
    rw [val_main_v18_apply, val_main_v1_apply, val_main_v0_apply, val_main_c_apply, val_main_call0_v1_apply,
      val_main_call0_v0_apply, val_main_c_3_apply]
    rfl
  have hi : idx_main_v32 (ix3 r' i (0 : Fin 1)) = ix2 r' i := by
    funext a
    match a with
    | ⟨0, _⟩ => rfl
    | ⟨1, _⟩ => rfl
  rw [val_main_v32_apply, val_main_v29_apply, val_main_v26_apply, val_main_v28_apply, val_main_v25_apply,
    val_main_c_7_apply, val_main_v27_apply, val_main_c_8_apply, hi]
  exact congrArg (fun w => Scalar.select (IntOp.cmpi .slt w 0#32) (IntOp.addi w 1000#32) w) h18

/-- Read signed, the index array's row component at update (r', i) is `r'`. -/
theorem idx_at0 (x1 : IVec SL 32) (r' : Fin 32768) (i : Fin 10) :
    (val_main_v33 (F := Ideal) x1 (ix3 r' i (0 : Fin 2))).toInt = (r'.val : ℤ) := by
  have hlt : r'.val < 2 ^ 31 := by have := r'.isLt; omega
  have hnn : 0 ≤ (BitVec.ofNat 32 r'.val).toInt := by rw [toInt_ofNat_small r'.val hlt]; omega
  rw [v33_at0, v31_at, wrap_of_nonneg _ _ hnn, toInt_ofNat_small r'.val hlt]

/-- With every label at least `-1`, the index array's class component at update (r', i) is the replaced label. -/
theorem idx_at1 (x1 : IVec SL 32) (hlab : ∀ i : SL.Idx, IntOp.cmpi .sge (x1 i) 4294967295#32 = 1#1)
    (r' : Fin 32768) (i : Fin 10) :
    val_main_v33 (F := Ideal) x1 (ix3 r' i (1 : Fin 2)) = safeLab (x1 (ix2 r' i)) := by
  rw [v33_at1, v32_at, wrap_of_nonneg _ _ (safeLab_nonneg _ (hlab (ix2 r' i)))]

/-! ## The mask at (r, k) -/

theorem ref_mask_aux (x1 : IVec SL 32) (hlab : ∀ i : SL.Idx, IntOp.cmpi .sge (x1 i) 4294967295#32 = 1#1)
    (r : Fin 32768) (k : Fin 1000) :
    val_main_v35 (F := Ideal) x1 (ix2 r k) = 1#1 ↔ markedBy (safeRow (lrow x1 r)) k := by
  have hk : k.val < 2 ^ 31 := by have := k.isLt; omega
  have hupd : ∀ j, val_main_v34 (F := Ideal) j = 1#1 := fun j => by rw [val_main_v34_apply, val_main_c_9_apply]
  have hx : val_main_v19 (F := Ideal) (ix2 r k) = 0#1 := by rw [val_main_v19_apply, val_main_c_4_apply]
  have H := scatter_const_apply scD (val_main_v19 (F := Ideal)) (val_main_v33 (F := Ideal) x1)
    (val_main_v34 (F := Ideal)) 1#1 hupd (ix2 r k)
  have hit : (∃ j : S32768x10.Idx, scD.resultIdx? j (val_main_v33 (F := Ideal) x1) = some (ix2 r k)) ↔
      markedBy (safeRow (lrow x1 r)) k := by
    constructor
    · rintro ⟨j, hj⟩
      obtain ⟨r', i, rfl⟩ : ∃ (r' : Fin 32768) (i : Fin 10), j = ix2 r' i := ⟨j 0, j 1, eq_ix2 j⟩
      obtain ⟨h0, h1⟩ := (scD_resultIdx_iff _ r' i r k).1 hj
      rw [idx_at0] at h0
      rw [idx_at1 x1 hlab, toInt_eq_iff _ _ hk] at h1
      have hr : r' = r := Fin.ext (by omega)
      subst hr
      exact ⟨i, h1⟩
    · rintro ⟨i, hi⟩
      refine ⟨ix2 r i, (scD_resultIdx_iff _ r i r k).2 ⟨idx_at0 x1 r i, ?_⟩⟩
      rw [idx_at1 x1 hlab, toInt_eq_iff _ _ hk]
      exact hi
  rw [← hit]
  unfold val_main_v35
  constructor
  · intro hv
    by_contra hne
    rw [H.2 hne, hx] at hv
    exact absurd hv (by decide)
  · exact H.1

end Aux

theorem ref_mask (x1 : IVec SL 32) (hlab : ∀ i : SL.Idx, IntOp.cmpi .sge (x1 i) 4294967295#32 = 1#1)
    (r : Fin 32768) (k : Fin 1000) :
    Cert.ReferenceIdeal.Read.val_main_v35 (F := Ideal) x1 (ix2 r k) = 1#1 ↔ markedBy (safeRow (lrow x1 r)) k :=
  ref_mask_aux x1 hlab r k

end Cert.Mcl

end
-- ==== Proof.RefRow.lean ====
/-
  The reference's vector of row losses, read row by row: under the precondition it is the vector of the rows' losses of the
  specification.

  Row `r` of the reference: the row maximum `M` (a fold of `max` from `-∞`, then once more `max` with `-∞`, which changes
  nothing); `e k = exp (x k - M)`; the softmax `e k / (0 + ∑ e)`; times the float of the negated mask bit; summed from the zero
  word; plus `ε`; `log`; negated; times the weight `999 / (1000 - n)` with `n` the integer count of present labels made a float.
  Finite scores turn "divide each, then sum the unmarked" into "sum the unmarked, then divide"; labels at least `-1` make the
  scattered mask the marking of the specification; `-y` is `0 - y`.
-/
import proofs.«414125_j44590350467563_3_alg».proof.Proof.Gen.ReferenceIdeal.Read
import proofs.«414125_j44590350467563_3_alg».proof.Proof.RowSpec
import proofs.«414125_j44590350467563_3_alg».proof.Proof.RowAlg
import proofs.«414125_j44590350467563_3_alg».proof.Proof.RefMask
import Idealize.ShloMosaic.Lib.StableHlo.Predicate
import Idealize.ShloMosaic.PureOps.Ideal.Laws

noncomputable section

namespace Cert.Mcl.Ref

open Idealize.ShloMosaic Idealize.ShloMosaic.ValueIdx
open Cert.ReferenceIdeal Cert.ReferenceIdeal.Gen Cert.ReferenceIdeal.Read Cert.Mcl

variable (x0 : SX.Idx → EReal) (x1 : SL.Idx → BitVec 32)

/-- Inserting column `k` into the row index `r` gives the index `(r, k)`. -/
theorem lift_row (h : S32768x1000.Reduces [1] S32768) (r : Fin 32768) (k : Fin 1000) : h.lift (ix1 r) k = ix2 r k := by
  funext a
  match a with
  | ⟨0, _⟩ => exact Fin.ext rfl
  | ⟨1, _⟩ => exact Fin.ext rfl

/-- The host's fold of `max` along row r, from `-∞`'s word, is the row's maximum. -/
theorem ref_fold_max (r : Fin 32768) : val_main_v5 (F := Ideal) x0 (ix1 r) = rowMax (xrow x0 r) := by
  unfold val_main_v5
  refine (Host.reduce_eq_fold_single (FloatOps.maximumf (F := Ideal) (φ := .f32)) x0 (val_main_cst (F := Ideal))
    reducesTo_S32768x1000_S32768_d1 (by decide) h_S_ (ix1 r)).trans ?_
  unfold rowMax
  show (Finset.univ : Finset (Fin 1000)).fold max (Ideal.ofBits .f32 0xFF800000#32) _ = _
  congr 1
  funext k
  exact congrArg x0 (lift_row _ r k)

/-- The reference's row maximum (one more `max` with `-∞`) is the row's maximum. -/
theorem ref_max (r : Fin 32768) : val_main_v7 (F := Ideal) x0 (ix1 r) = rowMax (xrow x0 r) := by
  rw [val_main_v7_apply, val_main_v6_apply, val_main_cst_1_apply, ref_fold_max]
  show max (Ideal.ofBits .f32 0xFF800000#32) (rowMax (xrow x0 r)) = rowMax (xrow x0 r)
  refine max_eq_right ?_
  unfold rowMax
  rw [Finset.le_fold_max]
  exact Or.inl le_rfl

/-- The reference's shifted exponential at (r, k). -/
theorem ref_expo (r : Fin 32768) (k : Fin 1000) : val_main_v11 (F := Ideal) x0 (ix2 r k) = expo (xrow x0 r) k := by
  rw [val_main_v11_apply, val_main_v10_apply, val_main_v9_apply, val_main_v8_apply]
  have hi : idx_main_v8 (idx_main_v9 (ix2 r k)) = ix1 r := funext fun a => match a with | ⟨0, _⟩ => rfl
  rw [hi, ref_max]
  rfl

/-- The reference's softmax denominator of row r, from the zero word. -/
theorem ref_den (r : Fin 32768) :
    val_main_v12 (F := Ideal) x0 (ix1 r) = Ideal.ofBits .f32 0x00000000#32 + ∑ k : Fin 1000, expo (xrow x0 r) k := by
  rw [val_main_v12_apply]
  refine congrArg (Ideal.ofBits .f32 0x00000000#32 + ·) (Finset.sum_congr rfl fun k _ => ?_)
  have hi : idx_main_v12 (ix1 r) k = ix2 r k := funext fun a => match a with | ⟨0, _⟩ => rfl | ⟨1, _⟩ => rfl
  rw [hi]
  exact ref_expo x0 r k

/-- The reference's softmax at (r, k). -/
theorem ref_soft (r : Fin 32768) (k : Fin 1000) :
    val_main_v15 (F := Ideal) x0 (ix2 r k)
      = Ideal.div (expo (xrow x0 r) k) (Ideal.ofBits .f32 0x00000000#32 + ∑ k' : Fin 1000, expo (xrow x0 r) k') := by
  rw [val_main_v15_apply, val_main_v14_apply, val_main_v13_apply]
  have hi : idx_main_v13 (idx_main_v14 (ix2 r k)) = ix1 r := funext fun a => match a with | ⟨0, _⟩ => rfl
  rw [hi, ref_den, ref_expo]
  rfl

/-- The float of the negated mask bit at (r, k): 0 at a marked class, 1 at an unmarked one. -/
theorem ref_unmarked (hlab : ∀ i : SL.Idx, IntOp.cmpi .sge (x1 i) 4294967295#32 = 1#1) (r : Fin 32768) (k : Fin 1000) :
    val_main_v37 (F := Ideal) x1 (ix2 r k) = if markedBy (safeRow (lrow x1 r)) k then (0 : EReal) else 1 := by
  rw [val_main_v37_apply, val_main_v36_apply]
  by_cases h : markedBy (safeRow (lrow x1 r)) k
  · rw [(ref_mask x1 hlab r k).mpr h, if_pos h]
    show ((((~~~(1#1 : BitVec 1)).toNat : ℕ) : ℝ) : EReal) = 0
    rw [show (~~~(1#1 : BitVec 1)).toNat = 0 from by decide]
    simp
  · rw [eq_zero_of_ne_one (fun e => h ((ref_mask x1 hlab r k).mp e)), if_neg h]
    show ((((~~~(0#1 : BitVec 1)).toNat : ℕ) : ℝ) : EReal) = 1
    rw [show (~~~(0#1 : BitVec 1)).toNat = 1 from by decide]
    simp

/-- The reference's unmarked probability mass of row r. -/
theorem ref_kept (hfin : ∀ i : SX.Idx, ∃ a : ℝ, x0 i = (a : EReal))
    (hlab : ∀ i : SL.Idx, IntOp.cmpi .sge (x1 i) 4294967295#32 = 1#1) (r : Fin 32768) :
    val_main_v39 (F := Ideal) x0 x1 (ix1 r) = Ideal.div (keptNum (xrow x0 r) (lrow x1 r)) (denom (xrow x0 r)) := by
  rw [val_main_v39_apply]
  have hterm : ∀ k : Fin 1000, val_main_v38 (F := Ideal) x0 x1 (idx_main_v39 (ix1 r) k)
      = Ideal.div (expo (xrow x0 r) k) (Ideal.ofBits .f32 0x00000000#32 + ∑ k' : Fin 1000, expo (xrow x0 r) k')
        * val_main_v37 (F := Ideal) x1 (ix2 r k) := by
    intro k
    have hi : idx_main_v39 (ix1 r) k = ix2 r k := funext fun a => match a with | ⟨0, _⟩ => rfl | ⟨1, _⟩ => rfl
    rw [hi, val_main_v38_apply, ref_soft]
    rfl
  rw [Finset.sum_congr rfl fun k _ => hterm k]
  exact refKept_eq (xrow x0 r) (fun k => hfin (ix2 r k)) (safeRow (lrow x1 r))
    (fun k => val_main_v37 (F := Ideal) x1 (ix2 r k)) (fun k => ref_unmarked x1 hlab r k)

/-- The reference's integer count of row r's present labels. -/
theorem ref_count (r : Fin 32768) : (val_main_v3 (F := Ideal) x1 (ix1 r)).toNat = present (lrow x1 r) := by
  unfold val_main_v3 val_main_v2 val_main_c_0
  rw [StableHlo.Predicate.toNat_reduce_count_cols (by decide) (val_main_v1 (F := Ideal) x1) natLt_1_32
    reducesTo_S32768x10_S32768_d1 h_S_ (ix1 r)]
  unfold present
  refine congrArg Finset.card (Finset.filter_congr fun q _ => ?_)
  have e : (StableHlo.Predicate.ij ((ix1 r : S32768.Idx) 0) q : S32768x10.Idx) = ix2 r q :=
    funext fun a => match a with | ⟨0, _⟩ => rfl | ⟨1, _⟩ => rfl
  rw [e]
  exact Iff.rfl

/-- The reference's weight of row r. -/
theorem ref_weight (r : Fin 32768) : val_main_v47 (F := Ideal) x1 (ix1 r) = weight (lrow x1 r) := by
  rw [val_main_v47_apply, val_main_v46_apply, val_main_cst_13_apply, val_main_v45_apply, val_main_v44_apply,
    val_main_cst_12_apply, val_main_v4_apply]
  have hc := ref_count x1 r
  have hle : present (lrow x1 r) ≤ 10 := by
    unfold present
    exact (Finset.card_le_univ _).trans (by simp)
  have hi : (val_main_v3 (F := Ideal) x1 (ix1 r)).toInt = ((present (lrow x1 r) : ℕ) : ℤ) := by
    rw [StableHlo.Predicate.toInt_eq_toNat_of_lt (by rw [hc]; omega), hc]
  unfold weight
  show Ideal.div (Ideal.ofBits .f32 0x4479C000#32)
      (Ideal.ofBits .f32 0x447A0000#32 - (((val_main_v3 (F := Ideal) x1 (ix1 r)).toInt : ℝ) : EReal)) = _
  rw [hi, Int.cast_natCast]

/-- THE REFERENCE'S VECTOR OF ROW LOSSES is the specification's. -/
theorem ref_rows (hfin : ∀ i : SX.Idx, ∃ a : ℝ, x0 i = (a : EReal))
    (hlab : ∀ i : SL.Idx, IntOp.cmpi .sge (x1 i) 4294967295#32 = 1#1) :
    val_main_v48 (F := Ideal) x0 x1 = lossArr x0 x1 := by
  funext j
  obtain ⟨r, rfl⟩ : ∃ r : Fin 32768, j = ix1 r := ⟨⟨(j 0).val, (j 0).isLt⟩, funext fun a => match a with | ⟨0, _⟩ => rfl⟩
  rw [val_main_v48_apply, val_main_v43_apply, val_main_v42_apply, val_main_v41_apply, val_main_v40_apply,
    val_main_cst_11_apply, ref_weight, ref_kept x0 x1 hfin hlab, lossArr_ix1]
  unfold rowLoss negLog
  show weight (lrow x1 r) * -(Ideal.log (Ideal.div (keptNum (xrow x0 r) (lrow x1 r)) (denom (xrow x0 r)) + Ideal.ofBits .f32 0x33D6BF95#32)) = _
  rw [zero_sub]

/-- THE REFERENCE'S RESULT is the mean of the specification's row losses: its last two lines are the mean of its vector of
    row losses. -/
theorem ref_result (hfin : ∀ i : SX.Idx, ∃ a : ℝ, x0 i = (a : EReal))
    (hlab : ∀ i : SL.Idx, IntOp.cmpi .sge (x1 i) 4294967295#32 = 1#1) :
    val_main_v50 (F := Ideal) x0 x1 = meanOf (lossArr x0 x1) := by
  rw [← ref_rows x0 x1 hfin hlab]
  rfl

end Cert.Mcl.Ref

end
-- ==== Proof.lean ====
/-
  The certificate of the complementary-label loss kernel against its jnp reference, over the extended reals.

  Both programs compute, for scores `x : [32768, 1000]` and labels `l : [32768, 10]` (a label `-1` means "absent"),

      mean over rows r of   999 / (1000 - n_r) · (0 - log (A_r + ε)),

  where `n_r` counts row r's present labels (repeats counted) and `A_r` is the softmax mass of the classes no present label
  of the row names.  The kernel replaces absent labels by the class count on the host, marks a class by comparing its column
  number with each of the row's ten replaced labels, zeroes the shifted exponentials `e = exp (x - max x)` of the marked
  classes, sums, and divides ONCE by the row's `∑ e`; the reference takes the softmax `e / ∑ e` first, builds the mask by a
  scatter of `true` at (row, replaced label) — out-of-range targets dropped — and multiplies by the negated mask before summing.

  The two agree under the precondition, which has two conjuncts. (1) Every score is finite: then every `e` and `∑ e` is a
  positive real and `∑ (e/D)·[unmarked] = (∑ e·[unmarked]) / D`, which is distributivity and fails at infinities. (2) Every label
  is at least `-1`: jax wraps a negative index, so a label in `[-1000, -2]` would be marked by the reference's scatter
  (as class `label + 1000`) and by no comparison of the kernel; with labels at least `-1` a replaced label is never negative
  and the scatter marks exactly the classes the comparisons mark.  The count `n_r` is a float sum of the presence bits in the
  kernel and an integer sum made a float in the reference: the same number.  `0 - y` and `-y` are the same extended real.

  The modules: RowSpec (the row's loss as one function on the extended reals), RowAlg (the two arithmetic facts), PreFacts (the
  precondition read), KerBody / KerHost / KerArray / KerRun (the kernel's body at a row, its host-computed operands, its
  output vector, its run), RefMask / RefRow (the reference's mask and its vector of row losses).  The kernel's frames are the
  generated ones; the reference's frame is its generated run with the result dropped; the ideal pass rewrote nothing, so
  `preserves` is `True`.
-/
import proofs.«414125_j44590350467563_3_alg».proof.Defs
import proofs.«414125_j44590350467563_3_alg».proof.Proof.Gen.Kernel
import proofs.«414125_j44590350467563_3_alg».proof.Proof.Gen.Kernel.Skeleton
import proofs.«414125_j44590350467563_3_alg».proof.Proof.Gen.Kernel.Launch
import proofs.«414125_j44590350467563_3_alg».proof.Proof.Gen.Kernel.Points
import proofs.«414125_j44590350467563_3_alg».proof.Proof.Gen.Kernel.Frame
import proofs.«414125_j44590350467563_3_alg».proof.Proof.Gen.KernelIdeal
import proofs.«414125_j44590350467563_3_alg».proof.Proof.Gen.KernelIdeal.Skeleton
import proofs.«414125_j44590350467563_3_alg».proof.Proof.Gen.KernelIdeal.Launch
import proofs.«414125_j44590350467563_3_alg».proof.Proof.Gen.KernelIdeal.Points
import proofs.«414125_j44590350467563_3_alg».proof.Proof.Gen.KernelIdeal.Frame
import proofs.«414125_j44590350467563_3_alg».proof.Proof.Gen.ReferenceIdeal
import proofs.«414125_j44590350467563_3_alg».proof.Proof.Gen.ReferenceIdeal.Run
import proofs.«414125_j44590350467563_3_alg».proof.Proof.Gen.ReferenceIdeal.Read
import proofs.«414125_j44590350467563_3_alg».proof.Proof.Gen.Pre_finite_inputs
import proofs.«414125_j44590350467563_3_alg».proof.Proof.PreFacts
import proofs.«414125_j44590350467563_3_alg».proof.Proof.KerRun
import proofs.«414125_j44590350467563_3_alg».proof.Proof.RefRow
import Idealize.ShloMosaic.Adequacy
import Idealize.ShloMosaic.Init

noncomputable section

namespace Cert.Proof

open Idealize.ShloMosaic Idealize.SL.Sem

/-- The word-level kernel's frame: the generated one. -/
theorem frame_k : Cert.frame_Kernel := fun m ρ _ => Cert.Kernel.Gen.frame m ρ

/-- The idealized kernel's frame: the generated one. -/
theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two arguments, under the precondition, both programs end with the mean of the rows'
    losses of the argument arrays: the kernel by its run read through its output vector, the reference by its run read row by
    row, the precondition giving finite scores and labels at least `-1`. -/
theorem algebraic : Cert.algebraic_KernelIdeal_ReferenceIdeal := by
  intro m ρ m' ρ' hpre hagree
  refine ⟨fun c => Cert.Mcl.meanOf (Cert.Mcl.lossArr (Cert.Mcl.Ker.scores m c) (Cert.Mcl.Ker.labels m c)),
    Cert.Mcl.Ker.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  refine (Cert.ReferenceIdeal.Read.val_main_v50_eq (F := Ideal) _ _).trans ?_
  exact Cert.Mcl.Ref.ref_result _ _ (Cert.Mcl.finite_of_pre _ _ (hpre c)) (Cert.Mcl.labels_of_pre _ _ (hpre c))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
